-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S32x10 .f32) (main_arg10 : FVec F S10 .f32) (main_v33 : IVec S_ 1) : IVec S_ 1 :=
  let main_v34 : FVec F S32x10 .f32 := Host.absf main_arg9
  let main_cst_12 : FVec F S_ .f32 := constant S_ .f32 0x7F800000#32
  let main_v35 : FVec F S32x10 .f32 := broadcastInDim S32x10 ![] bcast_S_S32x10 main_cst_12
  let main_v36 : IVec S32x10 1 := cmpf .olt main_v34 main_v35
  let main_c_13 : IVec S_ 1 := constantI S_ 1 1#1
  let main_v37 : IVec S_ 1 := (fun x v => Host.reduce IntOp.andi x v reducesTo_S32x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S32 .f32) (main_arg7 : FVec F S32x32 .f32) (main_arg8 : FVec F S32 .f32) (main_arg9 : FVec F S32x10 .f32) (main_arg10 : FVec F S10 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x32 .f32) (main_arg4 : FVec F S32 .f32) (main_arg5 : FVec F S32x32 .f32) (main_arg6 : FVec F S32 .f32) (main_arg7 : FVec F S32x32 .f32) (main_arg8 : FVec F S32 .f32) (main_arg9 : FVec F S32x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x32 : Shape := ⟨2, ![100000, 32]⟩
abbrev S4000x128 : Shape := ⟨2, ![4000, 128]⟩
abbrev S4000x32 : Shape := ⟨2, ![4000, 32]⟩
abbrev S1600000x32 : Shape := ⟨2, ![1600000, 32]⟩
abbrev S1x32 : Shape := ⟨2, ![1, 32]⟩
abbrev S64x32 : Shape := ⟨2, ![64, 32]⟩
abbrev S5000x1 : Shape := ⟨2, ![5000, 1]⟩
abbrev S5000x32 : Shape := ⟨2, ![5000, 32]⟩
abbrev S1x64 : Shape := ⟨2, ![1, 64]⟩
abbrev S5000x64 : Shape := ⟨2, ![5000, 64]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 155
  | .vmem => 20
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x10, .f32⟩
  | 10 => ⟨S10, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S100000, .f32⟩
  | 47 => ⟨S100000x1, .f32⟩
  | 48 => ⟨S100000x32, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x32, .f32⟩
  | 58 => ⟨S1600000x1, .f32⟩
  | 59 => ⟨S1600000x32, .f32⟩
  | 60 => ⟨S1600000x32, .f32⟩
  | 61 => ⟨S_, .f32⟩
  | 62 => ⟨S100000x32, .f32⟩
  | 63 => ⟨S1600000x1, .i32⟩
  | 64 => ⟨S100000x32, .f32⟩
  | 65 => ⟨S100000x32, .f32⟩
  | 66 => ⟨S100000x32, .f32⟩
  | 67 => ⟨S100000x32, .f32⟩
  | 68 => ⟨S1x32, .f32⟩
  | 69 => ⟨S100000x32, .f32⟩
  | 70 => ⟨S100000x32, .f32⟩
  | 71 => ⟨S_, .f32⟩
  | 72 => ⟨S100000x32, .f32⟩
  | 73 => ⟨S100000x32, .f32⟩
  | 74 => ⟨S100000x32, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x32, .f32⟩
  | 84 => ⟨S1600000x1, .f32⟩
  | 85 => ⟨S1600000x32, .f32⟩
  | 86 => ⟨S1600000x32, .f32⟩
  | 87 => ⟨S_, .f32⟩
  | 88 => ⟨S100000x32, .f32⟩
  | 89 => ⟨S1600000x1, .i32⟩
  | 90 => ⟨S100000x32, .f32⟩
  | 91 => ⟨S100000x32, .f32⟩
  | 92 => ⟨S100000x32, .f32⟩
  | 93 => ⟨S100000x32, .f32⟩
  | 94 => ⟨S1x32, .f32⟩
  | 95 => ⟨S100000x32, .f32⟩
  | 96 => ⟨S100000x32, .f32⟩
  | 97 => ⟨S_, .f32⟩
  | 98 => ⟨S100000x32, .f32⟩
  | 99 => ⟨S100000x32, .f32⟩
  | 100 => ⟨S100000x32, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x32, .f32⟩
  | 110 => ⟨S1600000x1, .f32⟩
  | 111 => ⟨S1600000x32, .f32⟩
  | 112 => ⟨S1600000x32, .f32⟩
  | 113 => ⟨S_, .f32⟩
  | 114 => ⟨S100000x32, .f32⟩
  | 115 => ⟨S1600000x1, .i32⟩
  | 116 => ⟨S100000x32, .f32⟩
  | 117 => ⟨S100000x32, .f32⟩
  | 118 => ⟨S100000x32, .f32⟩
  | 119 => ⟨S100000x32, .f32⟩
  | 120 => ⟨S1x32, .f32⟩
  | 121 => ⟨S100000x32, .f32⟩
  | 122 => ⟨S100000x32, .f32⟩
  | 123 => ⟨S100000x1, .i32⟩
  | 124 => ⟨S64x32, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S64, .f32⟩
  | 1 => ⟨S100000x1, .i32⟩
  | 2 => ⟨S64, .f32⟩
  | 3 => ⟨S_, .f32⟩
  | 4 => ⟨S64, .f32⟩
  | 5 => ⟨S64, .f32⟩
  | 6 => ⟨S64x1, .f32⟩
  | 7 => ⟨S64x32, .f32⟩
  | 8 => ⟨S64x32, .f32⟩
  | 9 => ⟨S64x10, .f32⟩
  | 10 => ⟨S1x10, .f32⟩
  | 11 => ⟨S64x10, .f32⟩
  | 12 => ⟨S64x10, .f32⟩
  | 13 => ⟨S_, .f32⟩
  | 14 => ⟨S64, .f32⟩
  | 15 => ⟨S_, .f32⟩
  | 16 => ⟨S64, .f32⟩
  | 17 => ⟨S64, .f32⟩
  | 18 => ⟨S64x1, .f32⟩
  | 19 => ⟨S64x10, .f32⟩
  | 20 => ⟨S64x10, .f32⟩
  | 21 => ⟨S64x10, .f32⟩
  | 22 => ⟨S_, .f32⟩
  | 23 => ⟨S64, .f32⟩
  | 24 => ⟨S64x1, .f32⟩
  | 25 => ⟨S64x10, .f32⟩
  | 26 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S32x32, .f32⟩
  | .local _ .vmem, ⟨8, _⟩ => ⟨S4000x32, .f32⟩
  | .local _ .vmem, ⟨9, _⟩ => ⟨S4000x32, .f32⟩
  | .local _ .vmem, ⟨10, _⟩ => ⟨S4000x32, .f32⟩
  | .local _ .vmem, ⟨11, _⟩ => ⟨S4000x32, .f32⟩
  | .local _ .vmem, ⟨12, _⟩ => ⟨S32x32, .f32⟩
  | .local _ .vmem, ⟨13, _⟩ => ⟨S4000x32, .f32⟩
  | .local _ .vmem, ⟨14, _⟩ => ⟨S4000x32, .f32⟩
  | .local _ .vmem, ⟨15, _⟩ => ⟨S5000x1, .i32⟩
  | .local _ .vmem, ⟨16, _⟩ => ⟨S5000x1, .i32⟩
  | .local _ .vmem, ⟨17, _⟩ => ⟨S5000x32, .f32⟩
  | .local _ .vmem, ⟨18, _⟩ => ⟨S5000x32, .f32⟩
  | .local _ .vmem, ⟨19, _⟩ => ⟨S64x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_c_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_16 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_17 : Ref sig .tc := ⟨.hbm, 125, rfl⟩
abbrev main_v95 : Ref sig .tc := ⟨.hbm, 126, rfl⟩
abbrev main_cst_18 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_19 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_20 : Ref sig .tc := ⟨.hbm, 141, rfl⟩
abbrev main_v108 : Ref sig .tc := ⟨.hbm, 142, rfl⟩
abbrev main_cst_21 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_22 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x128_S4000x128_0_0 : ∀ a, (![0, 0] : Fin 2 → Nat) a + S4000x128.size a ≤ S4000x128.size a
  h_S4000x128 : 0 < S4000x128.numel
  inb_S128x32_S128x32_0_0 : ∀ a, (![0, 0] : Fin 2 → Nat) a + S128x32.size a ≤ S128x32.size a
  h_S128x32 : 0 < S128x32.numel
  inb_S4000x32_S4000x32_0_0 : ∀ a, (![0, 0] : Fin 2 → Nat) a + S4000x32.size a ≤ S4000x32.size a
  h_S4000x32 : 0 < S4000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S32_S1x32 : S32.ShapeCasts S1x32
  bcast_S1x32_S100000x32_0_1 : S1x32.BroadcastsInDim S100000x32 (![0, 1] : Fin 2 → Fin S100000x32.rank)
  shapeCasts_S4000x32_S4000x32 : S4000x32.ShapeCasts S4000x32
  inb_S32x32_S32x32_0_0 : ∀ a, (![0, 0] : Fin 2 → Nat) a + S32x32.size a ≤ S32x32.size a
  h_S32x32 : 0 < S32x32.numel
  shapeCasts_S100000_S100000x1 : S100000.ShapeCasts S100000x1
  inb_S64x32_S64x32_0_0 : ∀ a, (![0, 0] : Fin 2 → Nat) a + S64x32.size a ≤ S64x32.size a
  h_S64x32 : 0 < S64x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  iota_S1x64_d1_w32 : S1x64.Iotas .tc 32 [1]
  broadcasts_S5000x1_S5000x64 : S5000x1.Broadcasts S5000x64
  broadcasts_S1x64_S5000x64 : S1x64.Broadcasts S5000x64
  natLt_1_32 : 1 < 32
  shapeCasts_S64x32_S64x32 : S64x32.ShapeCasts S64x32
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x32_S4000x32_1_0_0_1_n_n_wf : DotDims.WF S4000x128 S128x32 S4000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S4000x32_S32x32_S4000x32_1_0_0_1_n_n_wf : DotDims.WF S4000x32 S32x32 S4000x32 [1] [0] [0] [1] [] []
  dot_S5000x64_S5000x32_S64x32_0_0_1_1_n_n_wf : DotDims.WF S5000x64 S5000x32 S64x32 [0] [0] [1] [1] [] []
  scatter_S64_S100000x1_S100000_n_0_0_1_wf : ScatterDims.WF S64 S100000x1 S100000 [] [0] [0] 1
  dot_S64x32_S32x10_S64x10_1_0_0_1_n_n_wf : DotDims.WF S64x32 S32x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x32.size a ≤ S100000x32.size a
  hwx2_2 : ∀ i : grid2.Coords, EltTy.bits .f32 = 32 ∨ (Rect.block (s := S100000x32) S4000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S100000x1.size a
  hwx3_0 : ∀ i : grid3.Coords, EltTy.bits .i32 = 32 ∨ (Rect.block (s := S100000x1) S5000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S5000x64_S5000x32_S64x32_0_0_1_1_n_n : DotDims S5000x64 S5000x32 S64x32 where
  lhsContracting := [0]
  rhsContracting := [0]
  lhsNonContracting := [1]
  rhsNonContracting := [1]
  lhsBatch := []
  rhsBatch := []
  wf := dot_S5000x64_S5000x32_S64x32_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v72) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S4000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v93) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v94) S64x32.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x32 : Shape := ⟨2, ![100000, 32]⟩
abbrev S1600000x32 : Shape := ⟨2, ![1600000, 32]⟩
abbrev S100000x1 : Shape := ⟨2, ![100000, 1]⟩
abbrev S1x32 : Shape := ⟨2, ![1, 32]⟩
abbrev S64x32 : Shape := ⟨2, ![64, 32]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 199
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x10, .f32⟩
  | 10 => ⟨S10, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .f32⟩
  | 27 => ⟨S100000x32, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x32, .f32⟩
  | 56 => ⟨S1600000x1, .f32⟩
  | 57 => ⟨S1600000x32, .f32⟩
  | 58 => ⟨S1600000x32, .f32⟩
  | 59 => ⟨S_, .f32⟩
  | 60 => ⟨S100000x32, .f32⟩
  | 61 => ⟨S1600000x1, .i32⟩
  | 62 => ⟨S100000x32, .f32⟩
  | 63 => ⟨S100000, .f32⟩
  | 64 => ⟨S100000x1, .f32⟩
  | 65 => ⟨S100000x32, .f32⟩
  | 66 => ⟨S100000x32, .f32⟩
  | 67 => ⟨S100000x32, .f32⟩
  | 68 => ⟨S1x32, .f32⟩
  | 69 => ⟨S100000x32, .f32⟩
  | 70 => ⟨S100000x32, .f32⟩
  | 71 => ⟨S_, .f32⟩
  | 72 => ⟨S100000x32, .f32⟩
  | 73 => ⟨S100000x32, .f32⟩
  | 74 => ⟨S100000x32, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x32, .f32⟩
  | 103 => ⟨S1600000x1, .f32⟩
  | 104 => ⟨S1600000x32, .f32⟩
  | 105 => ⟨S1600000x32, .f32⟩
  | 106 => ⟨S_, .f32⟩
  | 107 => ⟨S100000x32, .f32⟩
  | 108 => ⟨S1600000x1, .i32⟩
  | 109 => ⟨S100000x32, .f32⟩
  | 110 => ⟨S100000, .f32⟩
  | 111 => ⟨S100000x1, .f32⟩
  | 112 => ⟨S100000x32, .f32⟩
  | 113 => ⟨S100000x32, .f32⟩
  | 114 => ⟨S100000x32, .f32⟩
  | 115 => ⟨S1x32, .f32⟩
  | 116 => ⟨S100000x32, .f32⟩
  | 117 => ⟨S100000x32, .f32⟩
  | 118 => ⟨S_, .f32⟩
  | 119 => ⟨S100000x32, .f32⟩
  | 120 => ⟨S100000x32, .f32⟩
  | 121 => ⟨S100000x32, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000, .f32⟩
  | 12 => ⟨S1600000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x32, .f32⟩
  | 22 => ⟨S1600000x1, .f32⟩
  | 23 => ⟨S1600000x32, .f32⟩
  | 24 => ⟨S1600000x32, .f32⟩
  | 25 => ⟨S_, .f32⟩
  | 26 => ⟨S100000x32, .f32⟩
  | 27 => ⟨S1600000x1, .i32⟩
  | 28 => ⟨S100000x32, .f32⟩
  | 29 => ⟨S100000, .f32⟩
  | 30 => ⟨S100000x1, .f32⟩
  | 31 => ⟨S100000x32, .f32⟩
  | 32 => ⟨S100000x32, .f32⟩
  | 33 => ⟨S100000x32, .f32⟩
  | 34 => ⟨S1x32, .f32⟩
  | 35 => ⟨S100000x32, .f32⟩
  | 36 => ⟨S100000x32, .f32⟩
  | 37 => ⟨S_, .f32⟩
  | 38 => ⟨S64x32, .f32⟩
  | 39 => ⟨S100000x1, .i32⟩
  | 40 => ⟨S64x32, .f32⟩
  | 41 => ⟨S_, .f32⟩
  | 42 => ⟨S100000, .f32⟩
  | 43 => ⟨S_, .f32⟩
  | 44 => ⟨S64, .f32⟩
  | 45 => ⟨S100000x1, .i32⟩
  | 46 => ⟨S64, .f32⟩
  | 47 => ⟨S_, .f32⟩
  | 48 => ⟨S64, .f32⟩
  | 49 => ⟨S64, .f32⟩
  | 50 => ⟨S64x1, .f32⟩
  | 51 => ⟨S64x32, .f32⟩
  | 52 => ⟨S64x32, .f32⟩
  | 53 => ⟨S64x10, .f32⟩
  | 54 => ⟨S1x10, .f32⟩
  | 55 => ⟨S64x10, .f32⟩
  | 56 => ⟨S64x10, .f32⟩
  | 57 => ⟨S_, .f32⟩
  | 58 => ⟨S64, .f32⟩
  | 59 => ⟨S_, .f32⟩
  | 60 => ⟨S64, .f32⟩
  | 61 => ⟨S64, .f32⟩
  | 62 => ⟨S64x1, .f32⟩
  | 63 => ⟨S64x10, .f32⟩
  | 64 => ⟨S64x10, .f32⟩
  | 65 => ⟨S64x10, .f32⟩
  | 66 => ⟨S_, .f32⟩
  | 67 => ⟨S64, .f32⟩
  | 68 => ⟨S64x1, .f32⟩
  | 69 => ⟨S64x10, .f32⟩
  | 70 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_call1_cst : Ref sig .tc := ⟨.hbm, 118, rfl⟩
abbrev main_call1_v0 : Ref sig .tc := ⟨.hbm, 119, rfl⟩
abbrev main_v87 : Ref sig .tc := ⟨.hbm, 120, rfl⟩
abbrev main_v88 : Ref sig .tc := ⟨.hbm, 121, rfl⟩
abbrev main_c_16 : Ref sig .tc := ⟨.hbm, 122, rfl⟩
abbrev main_v89 : Ref sig .tc := ⟨.hbm, 123, rfl⟩
abbrev main_v90 : Ref sig .tc := ⟨.hbm, 124, rfl⟩
abbrev main_c_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_18 : Ref sig .tc := ⟨.hbm, 131, rfl⟩
abbrev main_v96 : Ref sig .tc := ⟨.hbm, 132, rfl⟩
abbrev main_v97 : Ref sig .tc := ⟨.hbm, 133, rfl⟩
abbrev main_c_19 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_20 : Ref sig .tc := ⟨.hbm, 141, rfl⟩
abbrev main_v104 : Ref sig .tc := ⟨.hbm, 142, rfl⟩
abbrev main_v105 : Ref sig .tc := ⟨.hbm, 143, rfl⟩
abbrev main_c_21 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_22 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_23 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_24 : Ref sig .tc := ⟨.hbm, 169, rfl⟩
abbrev main_v128 : Ref sig .tc := ⟨.hbm, 170, rfl⟩
abbrev main_cst_25 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_26 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_cst_27 : Ref sig .tc := ⟨.hbm, 185, rfl⟩
abbrev main_v141 : Ref sig .tc := ⟨.hbm, 186, rfl⟩
abbrev main_cst_28 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_29 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  scatter_S100000_S1600000x1_S1600000_n_0_0_1_wf : ScatterDims.WF S100000 S1600000x1 S1600000 [] [0] [0] 1
  dot_S100000x128_S128x32_S100000x32_1_0_0_1_n_n_wf : DotDims.WF S100000x128 S128x32 S100000x32 [1] [0] [0] [1] [] []
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x10_S64x10_1_0_0_1_n_n_wf : DotDims.WF S64x32 S32x10 S64x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

class Facts : Prop extends Facts₀ where

variable [Facts]
-- ==== Proof.Stage0.lean ====
import proofs.«427758_j2396591751941_4_alg».proof.Proof.Gen.KernelIdeal.Launch
import proofs.«427758_j2396591751941_4_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen
open Cert.ReferenceIdeal.Read

/-! # The host operations before the first matrix product

From the edge list alone: the source and target node of every edge, the inverse square root of every node's degree
(in-degree plus one for the self loop), the weight of every edge and every node's self-loop weight. The reference
computes the same values by the same operations, so each buffer is the reference's stage of the same name. -/

variable (W : Valuation τ sig (Elt Ideal)) (a1 : (⟨Cert.ReferenceIdeal.S2x1600000, .i32⟩ : BufTy).Contents (Elt Ideal))

theorem s0_v1 (h1 : W (Proc.devRef .tc main_arg1) = a1) : after hostOps0 W (Proc.devRef .tc main_v1) = val_main_v1 (F := Ideal) a1 := by
  after_results_simp; rw [h1]; rfl
theorem s0_v3 (h1 : W (Proc.devRef .tc main_arg1) = a1) : after hostOps0 W (Proc.devRef .tc main_v3) = val_main_v3 (F := Ideal) a1 := by
  after_results_simp; rw [h1]; rfl
/-- The edge weights: the product of the two end nodes' inverse square-root degrees. -/
theorem s0_v26 (h1 : W (Proc.devRef .tc main_arg1) = a1) : after hostOps0 W (Proc.devRef .tc main_v26) = val_main_v27 (F := Ideal) a1 := by
  after_results_simp; rw [h1]; rfl
/-- The self-loop weights, as a column: the square of each node's inverse square-root degree. -/
theorem s0_v28 (h1 : W (Proc.devRef .tc main_arg1) = a1) : after hostOps0 W (Proc.devRef .tc main_v28) = val_main_v42 (F := Ideal) a1 := by
  after_results_simp; rw [h1]; rfl

/-! No operation of the stretch writes an argument array. -/
theorem keep0_arg0 : after hostOps0 W (Proc.devRef .tc main_arg0) = W (Proc.devRef .tc main_arg0) := by after_results_simp <;> rfl
theorem keep0_arg2 : after hostOps0 W (Proc.devRef .tc main_arg2) = W (Proc.devRef .tc main_arg2) := by after_results_simp <;> rfl
theorem keep0_arg3 : after hostOps0 W (Proc.devRef .tc main_arg3) = W (Proc.devRef .tc main_arg3) := by after_results_simp <;> rfl
theorem keep0_arg4 : after hostOps0 W (Proc.devRef .tc main_arg4) = W (Proc.devRef .tc main_arg4) := by after_results_simp <;> rfl
theorem keep0_arg5 : after hostOps0 W (Proc.devRef .tc main_arg5) = W (Proc.devRef .tc main_arg5) := by after_results_simp <;> rfl
theorem keep0_arg6 : after hostOps0 W (Proc.devRef .tc main_arg6) = W (Proc.devRef .tc main_arg6) := by after_results_simp <;> rfl
theorem keep0_arg7 : after hostOps0 W (Proc.devRef .tc main_arg7) = W (Proc.devRef .tc main_arg7) := by after_results_simp <;> rfl
theorem keep0_arg8 : after hostOps0 W (Proc.devRef .tc main_arg8) = W (Proc.devRef .tc main_arg8) := by after_results_simp <;> rfl
theorem keep0_arg9 : after hostOps0 W (Proc.devRef .tc main_arg9) = W (Proc.devRef .tc main_arg9) := by after_results_simp <;> rfl
theorem keep0_arg10 : after hostOps0 W (Proc.devRef .tc main_arg10) = W (Proc.devRef .tc main_arg10) := by after_results_simp <;> rfl

end Cert.KernelIdeal.Val

end
-- ==== Proof.Layout.lean ====
import proofs.«427758_j2396591751941_4_alg».proof.Proof.Gen.KernelIdeal.Launch
import proofs.«427758_j2396591751941_4_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen
open Cert.ReferenceIdeal.Read

open Idealize.ShloMosaic.ValueIdx

/-- A bias vector laid out as one row by a reshape is the same row a broadcast along the new leading axis makes:
    both read entry q of the vector at (0, q). -/
theorem row_reshape_eq_bcast (a : (⟨Cert.ReferenceIdeal.S32, .f32⟩ : BufTy).Contents (Elt Ideal)) (h : S32.ShapeCasts S1x32)
    (h' : Cert.ReferenceIdeal.S32.BroadcastsInDim Cert.ReferenceIdeal.S1x32 (![1] : Fin 1 → Fin Cert.ReferenceIdeal.S1x32.rank)) :
    (fun i => shapeCast S1x32 a h i) = broadcastInDim Cert.ReferenceIdeal.S1x32 ![1] h' a := by
  funext i
  obtain ⟨u, q, rfl⟩ : ∃ (u : Fin 1) (q : Fin 32), i = ix2 u q := ⟨i 0, i 1, eq_ix2 i⟩
  refine (shapeCast_a_1a_apply a h u q).trans ?_
  refine (broadcastInDim_apply _ h' a (ix2 u q) (ix1 q) (fun d => match d with
    | ⟨0, _⟩ => by show q.val = if (32 : Nat) = 1 then 0 else q.val; rw [if_neg (by decide)])).symm

/-- A vector of ids laid out as one column by a reshape is the same column a broadcast along the new trailing axis
    makes: both read entry n of the vector at (n, 0). -/
theorem col_reshape_eq_bcast (a : (⟨Cert.ReferenceIdeal.S100000, .i32⟩ : BufTy).Contents (Elt Ideal)) (h : S100000.ShapeCasts S100000x1)
    (h' : Cert.ReferenceIdeal.S100000.BroadcastsInDim Cert.ReferenceIdeal.S100000x1 (![0] : Fin 1 → Fin Cert.ReferenceIdeal.S100000x1.rank)) :
    (fun i => shapeCast S100000x1 a h i) = broadcastInDim Cert.ReferenceIdeal.S100000x1 ![0] h' a := by
  funext i
  obtain ⟨n, u, rfl⟩ : ∃ (n : Fin 100000) (u : Fin 1), i = ix2 n u := ⟨i 0, i 1, eq_ix2 i⟩
  have hu : u.val = 0 := by omega
  refine (shapeCast_apply a h (ix2 n u) (ix1 n) (by
    rw [Shape.rowMajor_val_two, Shape.rowMajor_val_one]
    show n.val = n.val * 1 + u.val
    rw [hu, Nat.mul_one, Nat.add_zero])).trans ?_
  refine (broadcastInDim_apply _ h' a (ix2 n u) (ix1 n) (fun d => match d with
    | ⟨0, _⟩ => by show n.val = if (100000 : Nat) = 1 then 0 else n.val; rw [if_neg (by decide)])).symm

end Cert.KernelIdeal.Val

end
-- ==== Proof.Stage1.lean ====
import proofs.«427758_j2396591751941_4_alg».proof.Proof.Gen.KernelIdeal.Launch
import proofs.«427758_j2396591751941_4_alg».proof.Proof.Gen.ReferenceIdeal.Read
import Idealize.ShloMosaic.Lib.StableHlo.Run
import Idealize.ShloMosaic.Lib.Pipeline.Value
import Idealize.ShloMosaic.Lib.ValueIdx
import proofs.«427758_j2396591751941_4_alg».proof.Proof.Layout

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen
open Cert.ReferenceIdeal.Read

/-! # The host operations between matrix product 1 and the next kernel

One graph-convolution layer after its dense transform: gather the transformed rows at the edges' sources, scale by
the edge weights, add them up at the edges' targets, add the self-loop term and the bias, and clamp at zero. The
reference does the same with the same operations on the same values (it recomputes the edge and self-loop weights,
which are the same terms, and lays the bias out as a row by a broadcast where this program reshapes it). -/

variable (W : Valuation τ sig (Elt Ideal)) (a0 : (⟨Cert.ReferenceIdeal.S100000x128, .f32⟩ : BufTy).Contents (Elt Ideal)) (a1 : (⟨Cert.ReferenceIdeal.S2x1600000, .i32⟩ : BufTy).Contents (Elt Ideal)) (a3 : (⟨Cert.ReferenceIdeal.S128x32, .f32⟩ : BufTy).Contents (Elt Ideal)) (a4 : (⟨Cert.ReferenceIdeal.S32, .f32⟩ : BufTy).Contents (Elt Ideal))

theorem s1_v50
    (h29 : W (Proc.devRef .tc main_v29) = val_main_v12 (F := Ideal) a0 a3)
    (h1 : W (Proc.devRef .tc main_v1) = val_main_v1 (F := Ideal) a1) (h3 : W (Proc.devRef .tc main_v3) = val_main_v3 (F := Ideal) a1)
    (h26 : W (Proc.devRef .tc main_v26) = val_main_v27 (F := Ideal) a1) (h28 : W (Proc.devRef .tc main_v28) = val_main_v42 (F := Ideal) a1)
    (hb : W (Proc.devRef .tc main_arg4) = a4) :
    after hostOps1 W (Proc.devRef .tc main_v50) = val_main_v49 (F := Ideal) a0 a1 a3 a4 := by
  after_results_simp
  rw [h29, h1, h3, h26, h28, hb]
  rw [show (fun i => shapeCast main_v46.ty.shape a4 shapeCasts_S32_S1x32 i) = val_main_v46 (F := Ideal) a4 from
    row_reshape_eq_bcast a4 _ _]
  rfl

/-! What the stretch does not write. -/
theorem keep1_v1 : after hostOps1 W (Proc.devRef .tc main_v1) = W (Proc.devRef .tc main_v1) := by after_results_simp <;> rfl
theorem keep1_v3 : after hostOps1 W (Proc.devRef .tc main_v3) = W (Proc.devRef .tc main_v3) := by after_results_simp <;> rfl
theorem keep1_v26 : after hostOps1 W (Proc.devRef .tc main_v26) = W (Proc.devRef .tc main_v26) := by after_results_simp <;> rfl
theorem keep1_v28 : after hostOps1 W (Proc.devRef .tc main_v28) = W (Proc.devRef .tc main_v28) := by after_results_simp <;> rfl
theorem keep1_arg2 : after hostOps1 W (Proc.devRef .tc main_arg2) = W (Proc.devRef .tc main_arg2) := by after_results_simp <;> rfl
theorem keep1_arg5 : after hostOps1 W (Proc.devRef .tc main_arg5) = W (Proc.devRef .tc main_arg5) := by after_results_simp <;> rfl
theorem keep1_arg6 : after hostOps1 W (Proc.devRef .tc main_arg6) = W (Proc.devRef .tc main_arg6) := by after_results_simp <;> rfl
theorem keep1_arg7 : after hostOps1 W (Proc.devRef .tc main_arg7) = W (Proc.devRef .tc main_arg7) := by after_results_simp <;> rfl
theorem keep1_arg8 : after hostOps1 W (Proc.devRef .tc main_arg8) = W (Proc.devRef .tc main_arg8) := by after_results_simp <;> rfl
theorem keep1_arg9 : after hostOps1 W (Proc.devRef .tc main_arg9) = W (Proc.devRef .tc main_arg9) := by after_results_simp <;> rfl
theorem keep1_arg10 : after hostOps1 W (Proc.devRef .tc main_arg10) = W (Proc.devRef .tc main_arg10) := by after_results_simp <;> rfl

end Cert.KernelIdeal.Val

end
-- ==== Proof.Stage2.lean ====
import proofs.«427758_j2396591751941_4_alg».proof.Proof.Gen.KernelIdeal.Launch
import proofs.«427758_j2396591751941_4_alg».proof.Proof.Gen.ReferenceIdeal.Read
import Idealize.ShloMosaic.Lib.StableHlo.Run
import Idealize.ShloMosaic.Lib.Pipeline.Value
import Idealize.ShloMosaic.Lib.ValueIdx
import proofs.«427758_j2396591751941_4_alg».proof.Proof.Layout

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen
open Cert.ReferenceIdeal.Read

/-! # The host operations between matrix product 2 and the next kernel

One graph-convolution layer after its dense transform: gather the transformed rows at the edges' sources, scale by
the edge weights, add them up at the edges' targets, add the self-loop term and the bias, and clamp at zero. The
reference does the same with the same operations on the same values (it recomputes the edge and self-loop weights,
which are the same terms, and lays the bias out as a row by a broadcast where this program reshapes it). -/

variable (W : Valuation τ sig (Elt Ideal)) (a0 : (⟨Cert.ReferenceIdeal.S100000x128, .f32⟩ : BufTy).Contents (Elt Ideal)) (a1 : (⟨Cert.ReferenceIdeal.S2x1600000, .i32⟩ : BufTy).Contents (Elt Ideal)) (a3 : (⟨Cert.ReferenceIdeal.S128x32, .f32⟩ : BufTy).Contents (Elt Ideal)) (a4 : (⟨Cert.ReferenceIdeal.S32, .f32⟩ : BufTy).Contents (Elt Ideal)) (a5 : (⟨Cert.ReferenceIdeal.S32x32, .f32⟩ : BufTy).Contents (Elt Ideal)) (a6 : (⟨Cert.ReferenceIdeal.S32, .f32⟩ : BufTy).Contents (Elt Ideal))

theorem s2_v72
    (h51 : W (Proc.devRef .tc main_v51) = val_main_v50 (F := Ideal) a0 a1 a3 a4 a5)
    (h1 : W (Proc.devRef .tc main_v1) = val_main_v1 (F := Ideal) a1) (h3 : W (Proc.devRef .tc main_v3) = val_main_v3 (F := Ideal) a1)
    (h26 : W (Proc.devRef .tc main_v26) = val_main_v27 (F := Ideal) a1) (h28 : W (Proc.devRef .tc main_v28) = val_main_v42 (F := Ideal) a1)
    (hb : W (Proc.devRef .tc main_arg6) = a6) :
    after hostOps2 W (Proc.devRef .tc main_v72) = val_main_v87 (F := Ideal) a0 a1 a3 a4 a5 a6 := by
  after_results_simp
  rw [h51, h1, h3, h26, h28, hb]
  rw [show (fun i => shapeCast main_v68.ty.shape a6 shapeCasts_S32_S1x32 i) = val_main_v84 (F := Ideal) a6 from
    row_reshape_eq_bcast a6 _ _]
  rfl

/-! What the stretch does not write. -/
theorem keep2_v1 : after hostOps2 W (Proc.devRef .tc main_v1) = W (Proc.devRef .tc main_v1) := by after_results_simp <;> rfl
theorem keep2_v3 : after hostOps2 W (Proc.devRef .tc main_v3) = W (Proc.devRef .tc main_v3) := by after_results_simp <;> rfl
theorem keep2_v26 : after hostOps2 W (Proc.devRef .tc main_v26) = W (Proc.devRef .tc main_v26) := by after_results_simp <;> rfl
theorem keep2_v28 : after hostOps2 W (Proc.devRef .tc main_v28) = W (Proc.devRef .tc main_v28) := by after_results_simp <;> rfl
theorem keep2_arg2 : after hostOps2 W (Proc.devRef .tc main_arg2) = W (Proc.devRef .tc main_arg2) := by after_results_simp <;> rfl
theorem keep2_arg7 : after hostOps2 W (Proc.devRef .tc main_arg7) = W (Proc.devRef .tc main_arg7) := by after_results_simp <;> rfl
theorem keep2_arg8 : after hostOps2 W (Proc.devRef .tc main_arg8) = W (Proc.devRef .tc main_arg8) := by after_results_simp <;> rfl
theorem keep2_arg9 : after hostOps2 W (Proc.devRef .tc main_arg9) = W (Proc.devRef .tc main_arg9) := by after_results_simp <;> rfl
theorem keep2_arg10 : after hostOps2 W (Proc.devRef .tc main_arg10) = W (Proc.devRef .tc main_arg10) := by after_results_simp <;> rfl

end Cert.KernelIdeal.Val

end
-- ==== Proof.Stage3.lean ====
import proofs.«427758_j2396591751941_4_alg».proof.Proof.Gen.KernelIdeal.Launch
import proofs.«427758_j2396591751941_4_alg».proof.Proof.Gen.ReferenceIdeal.Read
import Idealize.ShloMosaic.Lib.StableHlo.Run
import Idealize.ShloMosaic.Lib.Pipeline.Value
import Idealize.ShloMosaic.Lib.ValueIdx
import proofs.«427758_j2396591751941_4_alg».proof.Proof.Layout

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen
open Cert.ReferenceIdeal.Read

/-! # The host operations between matrix product 3 and the next kernel

One graph-convolution layer after its dense transform: gather the transformed rows at the edges' sources, scale by
the edge weights, add them up at the edges' targets, add the self-loop term and the bias. The
reference does the same with the same operations on the same values (it recomputes the edge and self-loop weights,
which are the same terms, and lays the bias out as a row by a broadcast where this program reshapes it). -/

variable (W : Valuation τ sig (Elt Ideal)) (a0 : (⟨Cert.ReferenceIdeal.S100000x128, .f32⟩ : BufTy).Contents (Elt Ideal)) (a1 : (⟨Cert.ReferenceIdeal.S2x1600000, .i32⟩ : BufTy).Contents (Elt Ideal)) (a3 : (⟨Cert.ReferenceIdeal.S128x32, .f32⟩ : BufTy).Contents (Elt Ideal)) (a4 : (⟨Cert.ReferenceIdeal.S32, .f32⟩ : BufTy).Contents (Elt Ideal)) (a5 : (⟨Cert.ReferenceIdeal.S32x32, .f32⟩ : BufTy).Contents (Elt Ideal)) (a6 : (⟨Cert.ReferenceIdeal.S32, .f32⟩ : BufTy).Contents (Elt Ideal)) (a7 : (⟨Cert.ReferenceIdeal.S32x32, .f32⟩ : BufTy).Contents (Elt Ideal)) (a8 : (⟨Cert.ReferenceIdeal.S32, .f32⟩ : BufTy).Contents (Elt Ideal))

theorem s3_v92
    (h73 : W (Proc.devRef .tc main_v73) = val_main_v88 (F := Ideal) a0 a1 a3 a4 a5 a6 a7)
    (h1 : W (Proc.devRef .tc main_v1) = val_main_v1 (F := Ideal) a1) (h3 : W (Proc.devRef .tc main_v3) = val_main_v3 (F := Ideal) a1)
    (h26 : W (Proc.devRef .tc main_v26) = val_main_v27 (F := Ideal) a1) (h28 : W (Proc.devRef .tc main_v28) = val_main_v42 (F := Ideal) a1)
    (hb : W (Proc.devRef .tc main_arg8) = a8) :
    after hostOps3 W (Proc.devRef .tc main_v92) = val_main_v124 (F := Ideal) a0 a1 a3 a4 a5 a6 a7 a8 := by
  after_results_simp
  rw [h73, h1, h3, h26, h28, hb]
  rw [show (fun i => shapeCast main_v90.ty.shape a8 shapeCasts_S32_S1x32 i) = val_main_v122 (F := Ideal) a8 from
    row_reshape_eq_bcast a8 _ _]
  rfl

/-- The graph ids as a column, for the pooling kernel: the reference's column of the same ids. -/
theorem s3_v93 (a2 : (⟨Cert.ReferenceIdeal.S100000, .i32⟩ : BufTy).Contents (Elt Ideal)) (h2 : W (Proc.devRef .tc main_arg2) = a2) :
    after hostOps3 W (Proc.devRef .tc main_v93) = val_main_v126 (F := Ideal) a2 := by
  after_results_simp
  rw [h2]
  exact col_reshape_eq_bcast a2 _ _

/-! What the stretch does not write. -/
theorem keep3_arg2 : after hostOps3 W (Proc.devRef .tc main_arg2) = W (Proc.devRef .tc main_arg2) := by after_results_simp <;> rfl
theorem keep3_arg9 : after hostOps3 W (Proc.devRef .tc main_arg9) = W (Proc.devRef .tc main_arg9) := by after_results_simp <;> rfl
theorem keep3_arg10 : after hostOps3 W (Proc.devRef .tc main_arg10) = W (Proc.devRef .tc main_arg10) := by after_results_simp <;> rfl

end Cert.KernelIdeal.Val

end
-- ==== Proof.Stage4.lean ====
import proofs.«427758_j2396591751941_4_alg».proof.Proof.Gen.KernelIdeal.Launch
import proofs.«427758_j2396591751941_4_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen
open Cert.ReferenceIdeal.Read

/-! # The host operations after the pooling kernel

Per graph: the node count (at least one), the mean of the pooled rows, the classifier's product and bias, and the
softmax over the ten classes. The reference applies the same operations to the same values. -/

variable (W : Valuation τ sig (Elt Ideal)) (a0 : (⟨Cert.ReferenceIdeal.S100000x128, .f32⟩ : BufTy).Contents (Elt Ideal)) (a1 : (⟨Cert.ReferenceIdeal.S2x1600000, .i32⟩ : BufTy).Contents (Elt Ideal)) (a2 : (⟨Cert.ReferenceIdeal.S100000, .i32⟩ : BufTy).Contents (Elt Ideal)) (a3 : (⟨Cert.ReferenceIdeal.S128x32, .f32⟩ : BufTy).Contents (Elt Ideal)) (a4 : (⟨Cert.ReferenceIdeal.S32, .f32⟩ : BufTy).Contents (Elt Ideal)) (a5 : (⟨Cert.ReferenceIdeal.S32x32, .f32⟩ : BufTy).Contents (Elt Ideal)) (a6 : (⟨Cert.ReferenceIdeal.S32, .f32⟩ : BufTy).Contents (Elt Ideal)) (a7 : (⟨Cert.ReferenceIdeal.S32x32, .f32⟩ : BufTy).Contents (Elt Ideal)) (a8 : (⟨Cert.ReferenceIdeal.S32, .f32⟩ : BufTy).Contents (Elt Ideal)) (a9 : (⟨Cert.ReferenceIdeal.S32x10, .f32⟩ : BufTy).Contents (Elt Ideal)) (a10 : (⟨Cert.ReferenceIdeal.S10, .f32⟩ : BufTy).Contents (Elt Ideal))

theorem s4_v118
    (h94 : W (Proc.devRef .tc main_v94) = val_main_v127 (F := Ideal) a0 a1 a2 a3 a4 a5 a6 a7 a8)
    (h2 : W (Proc.devRef .tc main_arg2) = a2) (h9 : W (Proc.devRef .tc main_arg9) = a9) (h10 : W (Proc.devRef .tc main_arg10) = a10) :
    after hostOps4 W (Proc.devRef .tc main_v118) = val_main_v151 (F := Ideal) a0 a1 a2 a3 a4 a5 a6 a7 a8 a9 a10 := by
  after_results_simp
  rw [h94, h2, h9, h10]
  rfl

end Cert.KernelIdeal.Val

end
-- ==== Proof.Basics.lean ====
/- The vocabulary the value modules share: a region's entry contents at the ideal instance, and the pooled sum
   both the pooling kernel and the reference's segment sum compute. -/
import proofs.«427758_j2396591751941_4_alg».proof.KernelIdeal
import Idealize.ShloMosaic.PureOps.Ideal
import Idealize.ShloMosaic.Lib.ValueIdx

noncomputable section

namespace Cert.KernelIdeal.Val

open Idealize.ShloMosaic Idealize.ShloMosaic.TcCoe Idealize.SL.Sem
open Cert.KernelIdeal

/-- A TensorCore's buffer contents at a region's entry, at the ideal instance. -/
abbrev VT := (c : Dev nD) → (b : Ref sig .tc) → Buf (Elt Ideal) ((c : Thread nD τ).loc b)

/-- The per-graph column sums: entry (g, f) adds h[n, f] over every node row n whose graph id b[n, 0] is the word g.
    A row whose id is no graph's (negative, or 64 and above) is in no sum. -/
def poolSum (b : IVec S100000x1 32) (h : FVec Ideal S100000x32 .f32) : FVec Ideal S64x32 .f32 :=
  fun i => ∑ n : Fin 100000,
    if b (ValueIdx.ix2 n (0 : Fin 1)) = BitVec.ofNat 32 (i 0).val then h (ValueIdx.ix2 n (⟨(i 1).val, (i 1).isLt⟩ : Fin 32)) else 0

end Cert.KernelIdeal.Val

end
-- ==== Proof.MM0.lean ====
import proofs.«427758_j2396591751941_4_alg».proof.Proof.Gen.KernelIdeal.Frame
import proofs.«427758_j2396591751941_4_alg».proof.Proof.Gen.ReferenceIdeal
import proofs.«427758_j2396591751941_4_alg».proof.Proof.Basics
import Idealize.ShloMosaic.PureOps.Ideal.Laws
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.SL.Sem
open Cert.KernelIdeal Cert.KernelIdeal.Gen

namespace MM0

open Idealize.ShloMosaic.ValueIdx

/-- The product of a [100000,128] array and a [128,32] array, entry by entry: row i 0 of the first against column i 1
    of the second, summed over the 128 shared coordinates. -/
def prod (x : (⟨2, ![100000, 128]⟩ : Shape).Idx → EReal) (w : (⟨2, ![128, 32]⟩ : Shape).Idx → EReal) :
    (⟨2, ![100000, 32]⟩ : Shape).Idx → EReal :=
  fun i => ∑ k : Fin 128, x (ix2 (⟨(i 0).val, (i 0).isLt⟩ : Fin 100000) k) * w (ix2 k (⟨(i 1).val, (i 1).isLt⟩ : Fin 32))

/-! ## The reference's product read at an index

The operand indices of the host's product at a result index i and a contraction index q, axis by axis: the left operand is
read at (i 0, q), the right one at (q, i 1). -/

theorem ref_lhs_0 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x32_S100000x32_1_0_0_1_n_n.lhsBatch by decide), dif_pos (show (0 : Fin Cert.ReferenceIdeal.S100000x128.rank) ∈ Cert.ReferenceIdeal.dot_S100000x128_S128x32_S100000x32_1_0_0_1_n_n.lhsNonContracting by decide)]
  rfl
theorem ref_lhs_1 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.lhsIdx i q 1).val = (q ⟨0, by decide⟩).val :=
  Cert.ReferenceIdeal.dot_S100000x128_S128x32_S100000x32_1_0_0_1_n_n.lhsIdx_val_of_single rfl i q
theorem ref_rhs_0 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.rhsIdx i q 0).val = (q ⟨0, by decide⟩).val :=
  Cert.ReferenceIdeal.dot_S100000x128_S128x32_S100000x32_1_0_0_1_n_n.rhsIdx_val_of_single rfl i q
theorem ref_rhs_1 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.rhsIdx i q 1).val = (i 1).val := by
  unfold DotDims.rhsIdx
  rw [dif_neg (show ¬(1 : Fin Cert.ReferenceIdeal.S128x32.rank) ∈ Cert.ReferenceIdeal.dot_S100000x128_S128x32_S100000x32_1_0_0_1_n_n.rhsBatch by decide), dif_pos (show (1 : Fin Cert.ReferenceIdeal.S128x32.rank) ∈ Cert.ReferenceIdeal.dot_S100000x128_S128x32_S100000x32_1_0_0_1_n_n.rhsNonContracting by decide)]
  rfl

/-- The host's product of the two arrays is `prod` of them: its sum over the contraction shape's one axis, re-indexed
    by that axis's coordinate. -/
theorem ref_eq (x : FVec Ideal Cert.ReferenceIdeal.S100000x128 .f32) (w : FVec Ideal Cert.ReferenceIdeal.S128x32 .f32) :
    Host.dotGeneral (F := Ideal) (φ₁ := .f32) (φ₂ := .f32) Cert.ReferenceIdeal.dot_S100000x128_S128x32_S100000x32_1_0_0_1_n_n none x w = prod x w := by
  funext i
  simp only [Host.dotGeneral]
  rw [Ideal.dotGeneral_apply, ← Equiv.sum_comp (ValueIdx.contrEquiv1 Cert.ReferenceIdeal.dot_S100000x128_S128x32_S100000x32_1_0_0_1_n_n 128 rfl rfl).symm]
  unfold prod
  refine Finset.sum_congr rfl fun k _ => ?_
  have hk := ValueIdx.contrEquiv1_symm_val Cert.ReferenceIdeal.dot_S100000x128_S128x32_S100000x32_1_0_0_1_n_n 128 rfl rfl k
  have el : Cert.ReferenceIdeal.dot_S100000x128_S128x32_S100000x32_1_0_0_1_n_n.lhsIdx i ((ValueIdx.contrEquiv1 Cert.ReferenceIdeal.dot_S100000x128_S128x32_S100000x32_1_0_0_1_n_n 128 rfl rfl).symm k) = ix2 (⟨(i 0).val, (i 0).isLt⟩ : Fin 100000) k := funext fun a => Fin.ext (by
    match a with
    | ⟨0, _⟩ => exact ref_lhs_0 _ _
    | ⟨1, _⟩ => exact (ref_lhs_1 _ _).trans hk)
  have er : Cert.ReferenceIdeal.dot_S100000x128_S128x32_S100000x32_1_0_0_1_n_n.rhsIdx i ((ValueIdx.contrEquiv1 Cert.ReferenceIdeal.dot_S100000x128_S128x32_S100000x32_1_0_0_1_n_n 128 rfl rfl).symm k) = ix2 k (⟨(i 1).val, (i 1).isLt⟩ : Fin 32) := funext fun a => Fin.ext (by
    match a with
    | ⟨0, _⟩ => exact (ref_rhs_0 _ _).trans hk
    | ⟨1, _⟩ => exact ref_rhs_1 _ _)
  rw [el, er]

/-! ## The kernel's block product read at an index

The same four coordinate facts for the block-sized product the body computes. -/

theorem ker_lhs_0 (i : S4000x32.Idx) (q : dot_S4000x128_S128x32_S4000x32_1_0_0_1_n_n.contr.Idx) :
    (dot_S4000x128_S128x32_S4000x32_1_0_0_1_n_n.lhsIdx i q 0).val = (i 0).val := by
  unfold DotDims.lhsIdx
  rw [dif_neg (show ¬(0 : Fin S4000x128.rank) ∈ dot_S4000x128_S128x32_S4000x32_1_0_0_1_n_n.lhsBatch by decide), dif_pos (show (0 : Fin S4000x128.rank) ∈ dot_S4000x128_S128x32_S4000x32_1_0_0_1_n_n.lhsNonContracting by decide)]
  rfl
theorem ker_lhs_1 (i : S4000x32.Idx) (q : dot_S4000x128_S128x32_S4000x32_1_0_0_1_n_n.contr.Idx) :
    (dot_S4000x128_S128x32_S4000x32_1_0_0_1_n_n.lhsIdx i q 1).val = (q ⟨0, by decide⟩).val :=
  dot_S4000x128_S128x32_S4000x32_1_0_0_1_n_n.lhsIdx_val_of_single rfl i q
theorem ker_rhs_0 (i : S4000x32.Idx) (q : dot_S4000x128_S128x32_S4000x32_1_0_0_1_n_n.contr.Idx) :
    (dot_S4000x128_S128x32_S4000x32_1_0_0_1_n_n.rhsIdx i q 0).val = (q ⟨0, by decide⟩).val :=
  dot_S4000x128_S128x32_S4000x32_1_0_0_1_n_n.rhsIdx_val_of_single rfl i q
theorem ker_rhs_1 (i : S4000x32.Idx) (q : dot_S4000x128_S128x32_S4000x32_1_0_0_1_n_n.contr.Idx) :
    (dot_S4000x128_S128x32_S4000x32_1_0_0_1_n_n.rhsIdx i q 1).val = (i 1).val := by
  unfold DotDims.rhsIdx
  rw [dif_neg (show ¬(1 : Fin S128x32.rank) ∈ dot_S4000x128_S128x32_S4000x32_1_0_0_1_n_n.rhsBatch by decide), dif_pos (show (1 : Fin S128x32.rank) ∈ dot_S4000x128_S128x32_S4000x32_1_0_0_1_n_n.rhsNonContracting by decide)]
  rfl

/-- The body's stored value at an index of the block: row j 0 of the left block against column j 1 of the right
    block, summed over the 128 shared coordinates (the zero accumulator adds nothing). -/
theorem pay_apply (v0 : FVec Ideal S4000x128 .f32) (v1 : FVec Ideal S128x32 .f32) (j : S4000x32.Idx) :
    k0_pay1 (F := Ideal) v0 v1 j
      = ∑ k : Fin 128, v0 (ix2 (⟨(j 0).val, (j 0).isLt⟩ : Fin 4000) k) * v1 (ix2 k (⟨(j 1).val, (j 1).isLt⟩ : Fin 32)) := by
  unfold k0_pay1
  show FloatOps.matmul dot_S4000x128_S128x32_S4000x32_1_0_0_1_n_n none v0 v1 (constant S4000x32 .f32 0x00000000#32) j = _
  rw [Ideal.matmul_constant_zero_apply, ← Equiv.sum_comp (ValueIdx.contrEquiv1 dot_S4000x128_S128x32_S4000x32_1_0_0_1_n_n 128 rfl rfl).symm]
  refine Finset.sum_congr rfl fun k _ => ?_
  have hk := ValueIdx.contrEquiv1_symm_val dot_S4000x128_S128x32_S4000x32_1_0_0_1_n_n 128 rfl rfl k
  have el : dot_S4000x128_S128x32_S4000x32_1_0_0_1_n_n.lhsIdx j ((ValueIdx.contrEquiv1 dot_S4000x128_S128x32_S4000x32_1_0_0_1_n_n 128 rfl rfl).symm k) = ix2 (⟨(j 0).val, (j 0).isLt⟩ : Fin 4000) k := funext fun a => Fin.ext (by
    match a with
    | ⟨0, _⟩ => exact ker_lhs_0 _ _
    | ⟨1, _⟩ => exact (ker_lhs_1 _ _).trans hk)
  have er : dot_S4000x128_S128x32_S4000x32_1_0_0_1_n_n.rhsIdx j ((ValueIdx.contrEquiv1 dot_S4000x128_S128x32_S4000x32_1_0_0_1_n_n 128 rfl rfl).symm k) = ix2 k (⟨(j 1).val, (j 1).isLt⟩ : Fin 32) := funext fun a => Fin.ext (by
    match a with
    | ⟨0, _⟩ => exact (ker_rhs_0 _ _).trans hk
    | ⟨1, _⟩ => exact ker_rhs_1 _ _)
  rw [el, er]

/-! ## From the blocks to the array -/

theorem hz : (![0, 0] : Fin 2 → Nat) = fun _ => 0 := funext fun a => by fin_cases a <;> rfl

/-- The printed index maps over the grid: at point t the left operand's block and the result's block are block row t,
    and the right operand's block is its whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 4000 t … 4000 t + 3999 of its array. -/
theorem lblk_apply (V : VT) (c : Dev nD) (t : Fin cfg0.N) (p : Fin 4000) (k : Fin 128) (r : Fin 100000)
    (hr : r.val = 4000 * t.val + p.val) :
    (iblk0 (F := Ideal) V c 0 t : FVec Ideal S4000x128 .f32) (ix2 p k)
      = (V c main_arg0 : (⟨2, ![100000, 128]⟩ : Shape).Idx → EReal) (ix2 r k) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

/-- The right operand's block at every point is its whole array. -/
theorem rblk_apply (V : VT) (c : Dev nD) (t : Fin cfg0.N) (k : Fin 128) (q q' : Fin 32) (hq : q'.val = q.val) :
    (iblk0 (F := Ideal) V c 1 t : FVec Ideal S128x32 .f32) (ix2 k q)
      = (V c main_arg3 : (⟨2, ![128, 32]⟩ : Shape).Idx → EReal) (ix2 k q') := by
  obtain ⟨-, -, e2, e3, -, -⟩ := idx_facts t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e2]; omega
  | ⟨1, _⟩ => show win0_1.index t (1 : Fin 2) * 32 + 1 * q.val = q'.val; rw [e3, hq]; omega

/-- What point t writes back is block t of the product of the two arrays as the region finds them: entry (y 0, y 1) of the
    block is entry (4000 t + y 0, y 1) of the product, its left factors read from rows 4000 t + y 0 of the left array. -/
theorem flushed_eq (V : VT) (c : Dev nD) (t : Fin cfg0.N) :
    (dat0 (F := Ideal) V c).flushed 2 t
      = ((cfg0.win 2).blk t).view.read (Elt Ideal) (prod (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S4000x128) hz, View.ld_unit_zero (S := S128x32) hz]
  obtain ⟨-, -, -, -, e4, e5⟩ := idx_facts t
  funext j
  show k0_pay1 (F := Ideal) (iblk0 V c 0 t) (iblk0 V c 1 t) j
    = prod (V c main_arg0) (V c main_arg3) (((cfg0.win 2).blk t).view.emb j)
  refine (pay_apply _ _ j).trans ?_
  unfold prod
  refine Finset.sum_congr rfl fun k _ => ?_
  refine congrArg₂ (· * ·) (lblk_apply V c t _ k _ ?_) (rblk_apply V c t k _ _ ?_)
  · show win0_2.index t (0 : Fin 2) * 4000 + 1 * (j 0).val = 4000 * t.val + (j 0).val
    rw [e4]; omega
  · show win0_2.index t (1 : Fin 2) * 32 + 1 * (j 1).val = (j 1).val
    rw [e5]; omega

/-- An index of the result array is in point t's block iff each coordinate is in the block's range on its axis. -/
theorem mem_blk (t : Fin cfg0.N) (i : S100000x32.Idx) :
    i ∈ ((cfg0.win 2).blk t).view.set ↔ ∀ a : Fin 2, win0_2.index t a * S4000x32.size a ≤ (i a).val ∧ (i a).val < win0_2.index t a * S4000x32.size a + S4000x32.size a := by
  show i ∈ ((View.whole main_v29).slice (win0_2.rect t)).set ↔ _
  rw [View.set_slice_whole, Rect.mem_set_unit]
  exact Iff.rfl

/-- The 25 blocks of 4000 rows cover the 100000 rows: row r is in the block of point r / 4000. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 25 := N_0
  have ht : (i 0).val / 4000 < cfg0.N := by rw [hN]; omega
  obtain ⟨-, -, -, -, e4, e5⟩ := idx_facts ⟨(i 0).val / 4000, ht⟩
  refine ⟨⟨(i 0).val / 4000, ht⟩, flush0_2 _, ?_⟩
  rw [mem_blk]
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ (1 : Fin 2) * 32 ≤ (i 1).val ∧ (i 1).val < win0_2.index ⟨(i 0).val / 4000, ht⟩ (1 : Fin 2) * 32 + 32
    rw [e5]; omega

end MM0

/-- Region 0's result array after the region: the whole product of its two operand arrays as the region finds them
    (each grid point writes the rows of its own block, and the blocks cover the array). -/
theorem arr0 (V : VT) (c : Dev nD) :
    (dat0 (F := Ideal) V c).arrAt 2 cfg0.N
      = Host.dotGeneral (F := Ideal) (φ₁ := .f32) (φ₂ := .f32) Cert.ReferenceIdeal.dot_S100000x128_S128x32_S100000x32_1_0_0_1_n_n none
          (V c main_arg0 : FVec Ideal Cert.ReferenceIdeal.S100000x128 .f32) (V c main_arg3 : FVec Ideal Cert.ReferenceIdeal.S128x32 .f32) := by
  refine Eq.trans ?_ (MM0.ref_eq _ _).symm
  exact (dat0 (F := Ideal) V c).arrAt_eq_of_cover 2 (MM0.prod (V c main_arg0) (V c main_arg3))
    (fun t _ => MM0.flushed_eq V c t) MM0.cover

end Cert.KernelIdeal.Val

end
-- ==== Proof.MM1.lean ====
import proofs.«427758_j2396591751941_4_alg».proof.Proof.Gen.KernelIdeal.Frame
import proofs.«427758_j2396591751941_4_alg».proof.Proof.Gen.ReferenceIdeal
import proofs.«427758_j2396591751941_4_alg».proof.Proof.Basics
import Idealize.ShloMosaic.PureOps.Ideal.Laws
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.SL.Sem
open Cert.KernelIdeal Cert.KernelIdeal.Gen

/-- The product of a 100000 x 32 array by a 32 x 32 array, entry by entry: entry (r, q) adds, over the 32 values k of the
    contracted axis, the left array's entry (r, k) times the right array's entry (k, q). -/
def rowsTimes_r1 (x : S100000x32.Idx → EReal) (w : S32x32.Idx → EReal) : S100000x32.Idx → EReal :=
  fun i => ∑ k : Fin 32, x (ValueIdx.ix2 (⟨(i 0).val, (i 0).isLt⟩ : Fin 100000) k) * w (ValueIdx.ix2 k (⟨(i 1).val, (i 1).isLt⟩ : Fin 32))

/-! ## The reference's product, read at an index -/

theorem refL0_r1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x32_S100000x32_1_0_0_1_n_n.lhsBatch by decide), dif_pos (show (0 : Fin Cert.ReferenceIdeal.S100000x32.rank) ∈ Cert.ReferenceIdeal.dot_S100000x32_S32x32_S100000x32_1_0_0_1_n_n.lhsNonContracting by decide)]
  rfl
theorem refL1_r1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 1).val = (q ⟨0, by decide⟩).val :=
  Cert.ReferenceIdeal.dot_S100000x32_S32x32_S100000x32_1_0_0_1_n_n.lhsIdx_val_of_single rfl i q
theorem refR0_r1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 0).val = (q ⟨0, by decide⟩).val :=
  Cert.ReferenceIdeal.dot_S100000x32_S32x32_S100000x32_1_0_0_1_n_n.rhsIdx_val_of_single rfl i q
theorem refR1_r1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 1).val = (i 1).val := by
  unfold DotDims.rhsIdx
  rw [dif_neg (show ¬(1 : Fin Cert.ReferenceIdeal.S32x32.rank) ∈ Cert.ReferenceIdeal.dot_S100000x32_S32x32_S100000x32_1_0_0_1_n_n.rhsBatch by decide), dif_pos (show (1 : Fin Cert.ReferenceIdeal.S32x32.rank) ∈ Cert.ReferenceIdeal.dot_S100000x32_S32x32_S100000x32_1_0_0_1_n_n.rhsNonContracting by decide)]
  rfl

/-- The host's product of the two arrays is that entry-by-entry product: its sum over the contracted axis, re-indexed
    by the axis' one coordinate. -/
theorem ref_eq_r1 (x : FVec Ideal Cert.ReferenceIdeal.S100000x32 .f32) (w : FVec Ideal Cert.ReferenceIdeal.S32x32 .f32) :
    Host.dotGeneral (F := Ideal) (φ₁ := .f32) (φ₂ := .f32) Cert.ReferenceIdeal.dot_S100000x32_S32x32_S100000x32_1_0_0_1_n_n none x w
      = rowsTimes_r1 x w := by
  funext i
  simp only [Host.dotGeneral]
  rw [Ideal.dotGeneral_apply, ← Equiv.sum_comp (ValueIdx.contrEquiv1 Cert.ReferenceIdeal.dot_S100000x32_S32x32_S100000x32_1_0_0_1_n_n 32 rfl rfl).symm]
  unfold rowsTimes_r1
  refine Finset.sum_congr rfl fun k _ => ?_
  have hk := ValueIdx.contrEquiv1_symm_val Cert.ReferenceIdeal.dot_S100000x32_S32x32_S100000x32_1_0_0_1_n_n 32 rfl rfl k
  have el : Cert.ReferenceIdeal.dot_S100000x32_S32x32_S100000x32_1_0_0_1_n_n.lhsIdx i ((ValueIdx.contrEquiv1 Cert.ReferenceIdeal.dot_S100000x32_S32x32_S100000x32_1_0_0_1_n_n 32 rfl rfl).symm k)
      = ValueIdx.ix2 (⟨(i 0).val, (i 0).isLt⟩ : Fin 100000) k := funext fun a => Fin.ext (by
    match a with
    | ⟨0, _⟩ => exact refL0_r1 _ _
    | ⟨1, _⟩ => exact (refL1_r1 _ _).trans hk)
  have er : Cert.ReferenceIdeal.dot_S100000x32_S32x32_S100000x32_1_0_0_1_n_n.rhsIdx i ((ValueIdx.contrEquiv1 Cert.ReferenceIdeal.dot_S100000x32_S32x32_S100000x32_1_0_0_1_n_n 32 rfl rfl).symm k)
      = ValueIdx.ix2 k (⟨(i 1).val, (i 1).isLt⟩ : Fin 32) := funext fun a => Fin.ext (by
    match a with
    | ⟨0, _⟩ => exact (refR0_r1 _ _).trans hk
    | ⟨1, _⟩ => exact refR1_r1 _ _)
  rw [el, er]

/-! ## The kernel body's product, read at an index -/

theorem kerL0_r1 (i : S4000x32.Idx) (q : dot_S4000x32_S32x32_S4000x32_1_0_0_1_n_n.contr.Idx) :
    (dot_S4000x32_S32x32_S4000x32_1_0_0_1_n_n.lhsIdx i q 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
theorem kerL1_r1 (i : S4000x32.Idx) (q : dot_S4000x32_S32x32_S4000x32_1_0_0_1_n_n.contr.Idx) :
    (dot_S4000x32_S32x32_S4000x32_1_0_0_1_n_n.lhsIdx i q 1).val = (q ⟨0, by decide⟩).val :=
  dot_S4000x32_S32x32_S4000x32_1_0_0_1_n_n.lhsIdx_val_of_single rfl i q
theorem kerR0_r1 (i : S4000x32.Idx) (q : dot_S4000x32_S32x32_S4000x32_1_0_0_1_n_n.contr.Idx) :
    (dot_S4000x32_S32x32_S4000x32_1_0_0_1_n_n.rhsIdx i q 0).val = (q ⟨0, by decide⟩).val :=
  dot_S4000x32_S32x32_S4000x32_1_0_0_1_n_n.rhsIdx_val_of_single rfl i q
theorem kerR1_r1 (i : S4000x32.Idx) (q : dot_S4000x32_S32x32_S4000x32_1_0_0_1_n_n.contr.Idx) :
    (dot_S4000x32_S32x32_S4000x32_1_0_0_1_n_n.rhsIdx i q 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl

/-- The body's stored value at row p, column q of its block: the sum over the contracted axis of the row block's entry
    (p, k) times the weight block's entry (k, q). The accumulator it adds onto is the zero splat, and 0 + s = s. -/
theorem pay_apply_r1 (x0 : Vec Ideal S4000x32 .f32) (x1 : Vec Ideal S32x32 .f32) (p : Fin 4000) (q : Fin 32) :
    k1_pay1 (F := Ideal) x0 x1 (ValueIdx.ix2 p q) = ∑ k : Fin 32, x0 (ValueIdx.ix2 p k) * x1 (ValueIdx.ix2 k q) := by
  unfold k1_pay1
  refine (Ideal.matmul_constant_zero_apply dot_S4000x32_S32x32_S4000x32_1_0_0_1_n_n none
    (shapeCast S4000x32 x0 shapeCasts_S4000x32_S4000x32) x1 (ValueIdx.ix2 p q)).trans ?_
  rw [← Equiv.sum_comp (ValueIdx.contrEquiv1 dot_S4000x32_S32x32_S4000x32_1_0_0_1_n_n 32 rfl rfl).symm]
  refine Finset.sum_congr rfl fun k _ => ?_
  have hk := ValueIdx.contrEquiv1_symm_val dot_S4000x32_S32x32_S4000x32_1_0_0_1_n_n 32 rfl rfl k
  have el : dot_S4000x32_S32x32_S4000x32_1_0_0_1_n_n.lhsIdx (ValueIdx.ix2 p q) ((ValueIdx.contrEquiv1 dot_S4000x32_S32x32_S4000x32_1_0_0_1_n_n 32 rfl rfl).symm k)
      = ValueIdx.ix2 p k := funext fun a => Fin.ext (by
    match a with
    | ⟨0, _⟩ => exact kerL0_r1 _ _
    | ⟨1, _⟩ => exact (kerL1_r1 _ _).trans hk)
  have er : dot_S4000x32_S32x32_S4000x32_1_0_0_1_n_n.rhsIdx (ValueIdx.ix2 p q) ((ValueIdx.contrEquiv1 dot_S4000x32_S32x32_S4000x32_1_0_0_1_n_n 32 rfl rfl).symm k)
      = ValueIdx.ix2 k q := funext fun a => Fin.ext (by
    match a with
    | ⟨0, _⟩ => exact (kerR0_r1 _ _).trans hk
    | ⟨1, _⟩ => exact kerR1_r1 _ _)
  rw [el, er, shapeCast_self]

/-! ## From the blocks to the array -/

theorem hz_r1 : (![0, 0] : Fin 2 → Nat) = fun _ => 0 := funext fun a => by fin_cases a <;> rfl

/-- The printed index maps over the grid: at point t the row window and the result window are at block (t, 0), the
    weight window always at block (0, 0); and the grid has 25 points. -/
theorem idx_facts_r1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 25 :=
  (by decide +kernel : ∀ t : Fin grid1.N, _)

/-- The body's stored value at a block index is the whole product at an array index, when the row block's row there is
    the array's row and the weight block is the weight array: stated over variables of the literal types. -/
theorem block_prod_r1 (x0 : Vec Ideal S4000x32 .f32) (x1 : Vec Ideal S32x32 .f32)
    (X : S100000x32.Idx → EReal) (W : S32x32.Idx → EReal) (y : S4000x32.Idx) (i : S100000x32.Idx)
    (hx : ∀ k : Fin 32, x0 (ValueIdx.ix2 (⟨(y 0).val, (y 0).isLt⟩ : Fin 4000) k) = X (ValueIdx.ix2 (⟨(i 0).val, (i 0).isLt⟩ : Fin 100000) k))
    (hw : ∀ k : Fin 32, x1 (ValueIdx.ix2 k (⟨(y 1).val, (y 1).isLt⟩ : Fin 32)) = W (ValueIdx.ix2 k (⟨(i 1).val, (i 1).isLt⟩ : Fin 32))) :
    k1_pay1 (F := Ideal) x0 x1 y = rowsTimes_r1 X W i := by
  have hy : y = ValueIdx.ix2 (⟨(y 0).val, (y 0).isLt⟩ : Fin 4000) (⟨(y 1).val, (y 1).isLt⟩ : Fin 32) :=
    funext fun a => by match a with | ⟨0, _⟩ => rfl | ⟨1, _⟩ => rfl
  refine (congrArg (k1_pay1 (F := Ideal) x0 x1) hy).trans ((pay_apply_r1 x0 x1 _ _).trans ?_)
  unfold rowsTimes_r1
  exact Finset.sum_congr rfl fun k _ => by rw [hx k, hw k]

/-- What point t writes back is block t of the whole product of the two arrays as the region finds them. -/
theorem flushed_eq_r1 (V : VT) (c : Dev nD) (t : Fin cfg1.N) :
    (dat1 (F := Ideal) V c).flushed 2 t
      = ((cfg1.win 2).blk t).view.read (Elt Ideal) (rowsTimes_r1 (V c main_v50) (V c main_arg5)) := by
  show (cfg1.win 2).cut (grid1.coords t) ((dat1 V c).after 2 t) = _
  rw [after1_2]
  unfold out1_2
  rw [View.canon_unit_zero hz_r1]
  simp only [View.ld_unit_zero (S := S4000x32) hz_r1, View.ld_unit_zero (S := S32x32) hz_r1]
  obtain ⟨e0, e1, e2, e3, e4, e5, -⟩ := idx_facts_r1 t
  funext j
  refine block_prod_r1 (iblk1 V c 0 t) (iblk1 V c 1 t) (V c main_v50) (V c main_arg5)
    ((cfg1.win 2).xinj (grid1.coords t) j) (((cfg1.win 2).blk t).view.emb j) (fun k => ?_) (fun k => ?_)
  · show V c main_v50 (((cfg1.win 0).blk t).view.emb _) = V c main_v50 _
    refine congrArg (V c main_v50) (funext fun a => Fin.ext ?_)
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 32 + 1 * k.val = k.val; omega
  · show V c main_arg5 (((cfg1.win 1).blk t).view.emb _) = V c main_arg5 _
    refine congrArg (V c main_arg5) (funext fun a => Fin.ext ?_)
    match a with
    | ⟨0, _⟩ => show win1_1.index t (0 : Fin 2) * 32 + 1 * k.val = k.val; omega
    | ⟨1, _⟩ => show win1_1.index t (1 : Fin 2) * 32 + 1 * (j 1).val = win1_2.index t (1 : Fin 2) * 32 + 1 * (j 1).val; omega

/-- An index of the result array is in point t's block iff each coordinate is in the block's range on its axis. -/
theorem mem_blk_r1 (t : Fin cfg1.N) (i : S100000x32.Idx) :
    i ∈ ((cfg1.win 2).blk t).view.set ↔ ∀ a : Fin 2, win1_2.index t a * S4000x32.size a ≤ (i a).val ∧ (i a).val < win1_2.index t a * S4000x32.size a + S4000x32.size a := by
  show i ∈ ((View.whole main_v51).slice (win1_2.rect t)).set ↔ _
  rw [View.set_slice_whole, Rect.mem_set_unit]
  exact Iff.rfl

/-- Every row of the result array is in some point's block: row r in the block of point r / 4000. -/
theorem cover_r1 (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨e0, e1, e2, e3, e4, e5, -⟩ := idx_facts_r1 t
  refine ⟨t, flush1_2 t, ?_⟩
  rw [mem_blk_r1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 32 ≤ (i 1).val ∧ (i 1).val < win1_2.index t (1 : Fin 2) * 32 + 32; omega

/-- Region 1's result array after the region: the whole product of its two operand arrays as the region finds them
    (each grid point writes the rows of its own block, and the blocks cover the array). -/
theorem arr1 (V : VT) (c : Dev nD) :
    (dat1 (F := Ideal) V c).arrAt 2 cfg1.N
      = Host.dotGeneral (F := Ideal) (φ₁ := .f32) (φ₂ := .f32) Cert.ReferenceIdeal.dot_S100000x32_S32x32_S100000x32_1_0_0_1_n_n none
          (V c main_v50 : FVec Ideal Cert.ReferenceIdeal.S100000x32 .f32) (V c main_arg5 : FVec Ideal Cert.ReferenceIdeal.S32x32 .f32) := by
  rw [ref_eq_r1]
  exact (dat1 (F := Ideal) V c).arrAt_eq_of_cover 2 (rowsTimes_r1 (V c main_v50) (V c main_arg5))
    (fun t _ => flushed_eq_r1 V c t) cover_r1

end Cert.KernelIdeal.Val

end
-- ==== Proof.MM2.lean ====
import proofs.«427758_j2396591751941_4_alg».proof.Proof.Gen.KernelIdeal.Frame
import proofs.«427758_j2396591751941_4_alg».proof.Proof.Gen.ReferenceIdeal
import proofs.«427758_j2396591751941_4_alg».proof.Proof.Basics
import Idealize.ShloMosaic.PureOps.Ideal.Laws
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.SL.Sem
open Cert.KernelIdeal Cert.KernelIdeal.Gen

/-- The product of a 100000 x 32 array by a 32 x 32 array, entry by entry: entry (r, q) adds, over the 32 values k of the
    contracted axis, the left array's entry (r, k) times the right array's entry (k, q). -/
def rowsTimes_r2 (x : S100000x32.Idx → EReal) (w : S32x32.Idx → EReal) : S100000x32.Idx → EReal :=
  fun i => ∑ k : Fin 32, x (ValueIdx.ix2 (⟨(i 0).val, (i 0).isLt⟩ : Fin 100000) k) * w (ValueIdx.ix2 k (⟨(i 1).val, (i 1).isLt⟩ : Fin 32))

/-! ## The reference's product, read at an index -/

theorem refL0_r2 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x32_S100000x32_1_0_0_1_n_n.lhsBatch by decide), dif_pos (show (0 : Fin Cert.ReferenceIdeal.S100000x32.rank) ∈ Cert.ReferenceIdeal.dot_S100000x32_S32x32_S100000x32_1_0_0_1_n_n.lhsNonContracting by decide)]
  rfl
theorem refL1_r2 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 1).val = (q ⟨0, by decide⟩).val :=
  Cert.ReferenceIdeal.dot_S100000x32_S32x32_S100000x32_1_0_0_1_n_n.lhsIdx_val_of_single rfl i q
theorem refR0_r2 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 0).val = (q ⟨0, by decide⟩).val :=
  Cert.ReferenceIdeal.dot_S100000x32_S32x32_S100000x32_1_0_0_1_n_n.rhsIdx_val_of_single rfl i q
theorem refR1_r2 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 1).val = (i 1).val := by
  unfold DotDims.rhsIdx
  rw [dif_neg (show ¬(1 : Fin Cert.ReferenceIdeal.S32x32.rank) ∈ Cert.ReferenceIdeal.dot_S100000x32_S32x32_S100000x32_1_0_0_1_n_n.rhsBatch by decide), dif_pos (show (1 : Fin Cert.ReferenceIdeal.S32x32.rank) ∈ Cert.ReferenceIdeal.dot_S100000x32_S32x32_S100000x32_1_0_0_1_n_n.rhsNonContracting by decide)]
  rfl

/-- The host's product of the two arrays is that entry-by-entry product: its sum over the contracted axis, re-indexed
    by the axis' one coordinate. -/
theorem ref_eq_r2 (x : FVec Ideal Cert.ReferenceIdeal.S100000x32 .f32) (w : FVec Ideal Cert.ReferenceIdeal.S32x32 .f32) :
    Host.dotGeneral (F := Ideal) (φ₁ := .f32) (φ₂ := .f32) Cert.ReferenceIdeal.dot_S100000x32_S32x32_S100000x32_1_0_0_1_n_n none x w
      = rowsTimes_r2 x w := by
  funext i
  simp only [Host.dotGeneral]
  rw [Ideal.dotGeneral_apply, ← Equiv.sum_comp (ValueIdx.contrEquiv1 Cert.ReferenceIdeal.dot_S100000x32_S32x32_S100000x32_1_0_0_1_n_n 32 rfl rfl).symm]
  unfold rowsTimes_r2
  refine Finset.sum_congr rfl fun k _ => ?_
  have hk := ValueIdx.contrEquiv1_symm_val Cert.ReferenceIdeal.dot_S100000x32_S32x32_S100000x32_1_0_0_1_n_n 32 rfl rfl k
  have el : Cert.ReferenceIdeal.dot_S100000x32_S32x32_S100000x32_1_0_0_1_n_n.lhsIdx i ((ValueIdx.contrEquiv1 Cert.ReferenceIdeal.dot_S100000x32_S32x32_S100000x32_1_0_0_1_n_n 32 rfl rfl).symm k)
      = ValueIdx.ix2 (⟨(i 0).val, (i 0).isLt⟩ : Fin 100000) k := funext fun a => Fin.ext (by
    match a with
    | ⟨0, _⟩ => exact refL0_r2 _ _
    | ⟨1, _⟩ => exact (refL1_r2 _ _).trans hk)
  have er : Cert.ReferenceIdeal.dot_S100000x32_S32x32_S100000x32_1_0_0_1_n_n.rhsIdx i ((ValueIdx.contrEquiv1 Cert.ReferenceIdeal.dot_S100000x32_S32x32_S100000x32_1_0_0_1_n_n 32 rfl rfl).symm k)
      = ValueIdx.ix2 k (⟨(i 1).val, (i 1).isLt⟩ : Fin 32) := funext fun a => Fin.ext (by
    match a with
    | ⟨0, _⟩ => exact (refR0_r2 _ _).trans hk
    | ⟨1, _⟩ => exact refR1_r2 _ _)
  rw [el, er]

/-! ## The kernel body's product, read at an index -/

theorem kerL0_r2 (i : S4000x32.Idx) (q : dot_S4000x32_S32x32_S4000x32_1_0_0_1_n_n.contr.Idx) :
    (dot_S4000x32_S32x32_S4000x32_1_0_0_1_n_n.lhsIdx i q 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
theorem kerL1_r2 (i : S4000x32.Idx) (q : dot_S4000x32_S32x32_S4000x32_1_0_0_1_n_n.contr.Idx) :
    (dot_S4000x32_S32x32_S4000x32_1_0_0_1_n_n.lhsIdx i q 1).val = (q ⟨0, by decide⟩).val :=
  dot_S4000x32_S32x32_S4000x32_1_0_0_1_n_n.lhsIdx_val_of_single rfl i q
theorem kerR0_r2 (i : S4000x32.Idx) (q : dot_S4000x32_S32x32_S4000x32_1_0_0_1_n_n.contr.Idx) :
    (dot_S4000x32_S32x32_S4000x32_1_0_0_1_n_n.rhsIdx i q 0).val = (q ⟨0, by decide⟩).val :=
  dot_S4000x32_S32x32_S4000x32_1_0_0_1_n_n.rhsIdx_val_of_single rfl i q
theorem kerR1_r2 (i : S4000x32.Idx) (q : dot_S4000x32_S32x32_S4000x32_1_0_0_1_n_n.contr.Idx) :
    (dot_S4000x32_S32x32_S4000x32_1_0_0_1_n_n.rhsIdx i q 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl

/-- The body's stored value at row p, column q of its block: the sum over the contracted axis of the row block's entry
    (p, k) times the weight block's entry (k, q). The accumulator it adds onto is the zero splat, and 0 + s = s. -/
theorem pay_apply_r2 (x0 : Vec Ideal S4000x32 .f32) (x1 : Vec Ideal S32x32 .f32) (p : Fin 4000) (q : Fin 32) :
    k2_pay1 (F := Ideal) x0 x1 (ValueIdx.ix2 p q) = ∑ k : Fin 32, x0 (ValueIdx.ix2 p k) * x1 (ValueIdx.ix2 k q) := by
  unfold k2_pay1
  refine (Ideal.matmul_constant_zero_apply dot_S4000x32_S32x32_S4000x32_1_0_0_1_n_n none
    (shapeCast S4000x32 x0 shapeCasts_S4000x32_S4000x32) x1 (ValueIdx.ix2 p q)).trans ?_
  rw [← Equiv.sum_comp (ValueIdx.contrEquiv1 dot_S4000x32_S32x32_S4000x32_1_0_0_1_n_n 32 rfl rfl).symm]
  refine Finset.sum_congr rfl fun k _ => ?_
  have hk := ValueIdx.contrEquiv1_symm_val dot_S4000x32_S32x32_S4000x32_1_0_0_1_n_n 32 rfl rfl k
  have el : dot_S4000x32_S32x32_S4000x32_1_0_0_1_n_n.lhsIdx (ValueIdx.ix2 p q) ((ValueIdx.contrEquiv1 dot_S4000x32_S32x32_S4000x32_1_0_0_1_n_n 32 rfl rfl).symm k)
      = ValueIdx.ix2 p k := funext fun a => Fin.ext (by
    match a with
    | ⟨0, _⟩ => exact kerL0_r2 _ _
    | ⟨1, _⟩ => exact (kerL1_r2 _ _).trans hk)
  have er : dot_S4000x32_S32x32_S4000x32_1_0_0_1_n_n.rhsIdx (ValueIdx.ix2 p q) ((ValueIdx.contrEquiv1 dot_S4000x32_S32x32_S4000x32_1_0_0_1_n_n 32 rfl rfl).symm k)
      = ValueIdx.ix2 k q := funext fun a => Fin.ext (by
    match a with
    | ⟨0, _⟩ => exact (kerR0_r2 _ _).trans hk
    | ⟨1, _⟩ => exact kerR1_r2 _ _)
  rw [el, er, shapeCast_self]

/-! ## From the blocks to the array -/

theorem hz_r2 : (![0, 0] : Fin 2 → Nat) = fun _ => 0 := funext fun a => by fin_cases a <;> rfl

/-- The printed index maps over the grid: at point t the row window and the result window are at block (t, 0), the
    weight window always at block (0, 0); and the grid has 25 points. -/
theorem idx_facts_r2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 25 :=
  (by decide +kernel : ∀ t : Fin grid2.N, _)

/-- The body's stored value at a block index is the whole product at an array index, when the row block's row there is
    the array's row and the weight block is the weight array: stated over variables of the literal types. -/
theorem block_prod_r2 (x0 : Vec Ideal S4000x32 .f32) (x1 : Vec Ideal S32x32 .f32)
    (X : S100000x32.Idx → EReal) (W : S32x32.Idx → EReal) (y : S4000x32.Idx) (i : S100000x32.Idx)
    (hx : ∀ k : Fin 32, x0 (ValueIdx.ix2 (⟨(y 0).val, (y 0).isLt⟩ : Fin 4000) k) = X (ValueIdx.ix2 (⟨(i 0).val, (i 0).isLt⟩ : Fin 100000) k))
    (hw : ∀ k : Fin 32, x1 (ValueIdx.ix2 k (⟨(y 1).val, (y 1).isLt⟩ : Fin 32)) = W (ValueIdx.ix2 k (⟨(i 1).val, (i 1).isLt⟩ : Fin 32))) :
    k2_pay1 (F := Ideal) x0 x1 y = rowsTimes_r2 X W i := by
  have hy : y = ValueIdx.ix2 (⟨(y 0).val, (y 0).isLt⟩ : Fin 4000) (⟨(y 1).val, (y 1).isLt⟩ : Fin 32) :=
    funext fun a => by match a with | ⟨0, _⟩ => rfl | ⟨1, _⟩ => rfl
  refine (congrArg (k2_pay1 (F := Ideal) x0 x1) hy).trans ((pay_apply_r2 x0 x1 _ _).trans ?_)
  unfold rowsTimes_r2
  exact Finset.sum_congr rfl fun k _ => by rw [hx k, hw k]

/-- What point t writes back is block t of the whole product of the two arrays as the region finds them. -/
theorem flushed_eq_r2 (V : VT) (c : Dev nD) (t : Fin cfg2.N) :
    (dat2 (F := Ideal) V c).flushed 2 t
      = ((cfg2.win 2).blk t).view.read (Elt Ideal) (rowsTimes_r2 (V c main_v72) (V c main_arg7)) := by
  show (cfg2.win 2).cut (grid2.coords t) ((dat2 V c).after 2 t) = _
  rw [after2_2]
  unfold out2_2
  rw [View.canon_unit_zero hz_r2]
  simp only [View.ld_unit_zero (S := S4000x32) hz_r2, View.ld_unit_zero (S := S32x32) hz_r2]
  obtain ⟨e0, e1, e2, e3, e4, e5, -⟩ := idx_facts_r2 t
  funext j
  refine block_prod_r2 (iblk2 V c 0 t) (iblk2 V c 1 t) (V c main_v72) (V c main_arg7)
    ((cfg2.win 2).xinj (grid2.coords t) j) (((cfg2.win 2).blk t).view.emb j) (fun k => ?_) (fun k => ?_)
  · show V c main_v72 (((cfg2.win 0).blk t).view.emb _) = V c main_v72 _
    refine congrArg (V c main_v72) (funext fun a => Fin.ext ?_)
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 32 + 1 * k.val = k.val; omega
  · show V c main_arg7 (((cfg2.win 1).blk t).view.emb _) = V c main_arg7 _
    refine congrArg (V c main_arg7) (funext fun a => Fin.ext ?_)
    match a with
    | ⟨0, _⟩ => show win2_1.index t (0 : Fin 2) * 32 + 1 * k.val = k.val; omega
    | ⟨1, _⟩ => show win2_1.index t (1 : Fin 2) * 32 + 1 * (j 1).val = win2_2.index t (1 : Fin 2) * 32 + 1 * (j 1).val; omega

/-- An index of the result array is in point t's block iff each coordinate is in the block's range on its axis. -/
theorem mem_blk_r2 (t : Fin cfg2.N) (i : S100000x32.Idx) :
    i ∈ ((cfg2.win 2).blk t).view.set ↔ ∀ a : Fin 2, win2_2.index t a * S4000x32.size a ≤ (i a).val ∧ (i a).val < win2_2.index t a * S4000x32.size a + S4000x32.size a := by
  show i ∈ ((View.whole main_v73).slice (win2_2.rect t)).set ↔ _
  rw [View.set_slice_whole, Rect.mem_set_unit]
  exact Iff.rfl

/-- Every row of the result array is in some point's block: row r in the block of point r / 4000. -/
theorem cover_r2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨e0, e1, e2, e3, e4, e5, -⟩ := idx_facts_r2 t
  refine ⟨t, flush2_2 t, ?_⟩
  rw [mem_blk_r2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 32 ≤ (i 1).val ∧ (i 1).val < win2_2.index t (1 : Fin 2) * 32 + 32; omega

/-- Region 2's result array after the region: the whole product of its two operand arrays as the region finds them
    (each grid point writes the rows of its own block, and the blocks cover the array). -/
theorem arr2 (V : VT) (c : Dev nD) :
    (dat2 (F := Ideal) V c).arrAt 2 cfg2.N
      = Host.dotGeneral (F := Ideal) (φ₁ := .f32) (φ₂ := .f32) Cert.ReferenceIdeal.dot_S100000x32_S32x32_S100000x32_1_0_0_1_n_n none
          (V c main_v72 : FVec Ideal Cert.ReferenceIdeal.S100000x32 .f32) (V c main_arg7 : FVec Ideal Cert.ReferenceIdeal.S32x32 .f32) := by
  rw [ref_eq_r2]
  exact (dat2 (F := Ideal) V c).arrAt_eq_of_cover 2 (rowsTimes_r2 (V c main_v72) (V c main_arg7))
    (fun t _ => flushed_eq_r2 V c t) cover_r2

end Cert.KernelIdeal.Val

end
-- ==== Proof.PoolKernel.lean ====
import proofs.«427758_j2396591751941_4_alg».proof.Proof.Gen.KernelIdeal.Frame
import proofs.«427758_j2396591751941_4_alg».proof.Proof.Gen.ReferenceIdeal
import proofs.«427758_j2396591751941_4_alg».proof.Proof.Basics
import Idealize.ShloMosaic.PureOps.Ideal.Laws
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.SL.Sem
open Cert.KernelIdeal Cert.KernelIdeal.Gen

/-! The pooling region, read as values. Its output block (64 graphs × 32 features) is one block every grid point maps
to; point t holds rows 5000 t … 5000 t + 4999 of the id column and of the node rows. The first point stores zeros
and then, like every later point, stores old + onehotᵀ · rows, where onehot (r, g) is 1 when row r's graph id is the
word g and 0 otherwise. On the extended reals 1 · x = x and 0 · x = 0 for every x, so the product's entry (g, q) is the
sum of rows (r, q) over the block's rows r whose id is g. By induction on the point, after point t entry (g, q) is the
sum over array rows n < 5000 (t + 1) with id g of rows (n, q); after the last point, the only one that writes back, it
is the whole pooled sum, and that point's block is the whole result array. -/

/-! ## What a grid point's stores leave in the output block -/

variable {F : FTy → Type} [FloatOps F]

theorem pool_hz : (![0, 0] : Fin 2 → Nat) = fun _ => 0 := funext fun a => by fin_cases a <;> rfl

/-- A later point (no reset): its one covering store's payload, over what the block held. -/
theorem pool_pieceB (c : Dev nD) (i : grid3.Coords) (a1 : Memref sig .tc .vmem S5000x1 .i32) (h1 : a1.IsWhole)
    (a2 : Memref sig .tc .vmem S5000x32 .f32) (h2 : a2.IsWhole) (a3 : Memref sig .tc .vmem S64x32 .f32) (h3 : a3.IsWhole)
    (hc : ¬cond3_0 i) (x0 : Vec F S5000x1 .i32) (x1 : Vec F S5000x32 .f32) (xo : Vec F S64x32 .f32) :
    out3_B_2 c i a1 h1 a2 h2 a3 h3 hc x0 x1 xo = k3_pay2 x0 x1 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero pool_hz]
  simp only [View.readAt_eq_ld, h1.read_unread, h2.read_unread, h3.read_unread, View.ld_unit_zero (S := S5000x1) pool_hz,
    View.ld_unit_zero (S := S5000x32) pool_hz, View.ld_unit_zero (S := S64x32) pool_hz]

/-- The first point: the zero block is stored and read back, then the covering store's payload over it. -/
theorem pool_pieceA (c : Dev nD) (i : grid3.Coords) (a1 : Memref sig .tc .vmem S5000x1 .i32) (h1 : a1.IsWhole)
    (a2 : Memref sig .tc .vmem S5000x32 .f32) (h2 : a2.IsWhole) (a3 : Memref sig .tc .vmem S64x32 .f32) (h3 : a3.IsWhole)
    (hc : cond3_0 i) (x0 : Vec F S5000x1 .i32) (x1 : Vec F S5000x32 .f32) :
    out3_A_2 c i a1 h1 a2 h2 a3 h3 hc x0 x1 = k3_pay2 x0 x1 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S64x32) pool_hz, View.readCov_unit_zero (S := S64x32) _ pool_hz]
  simp only [View.readAt_eq_ld, h1.read_unread, h2.read_unread, View.ld_unit_zero (S := S5000x1) pool_hz,
    View.ld_unit_zero (S := S5000x32) pool_hz]

open Idealize.ShloMosaic.ValueIdx

/-! ## The payload at an entry -/

open Idealize.ShloMosaic.ValueIdx

/-- The one-hot factor at (r, g): one where row r's graph id is the word g, zero elsewhere. -/
theorem pool_onehot_apply (x0 : IVec S5000x1 32) (hs : S5000x1.ShapeCasts S5000x1) (hb1 : S5000x1.Broadcasts S5000x64)
    (hi : S1x64.Iotas .tc 32 [1]) (hb2 : S1x64.Broadcasts S5000x64) (hlt : 1 < 32) (r : Fin 5000) (g : Fin 64) :
    (sitofp .f32 (extui 32 (cmpi .eq (broadcastTo S5000x64 (shapeCast S5000x1 x0 hs) hb1)
        (broadcastTo S5000x64 (iota .tc S1x64 32 [1] hi) hb2)) hlt) : FVec Ideal S5000x64 .f32) (ix2 r g)
      = if x0 (ix2 r (0 : Fin 1)) = BitVec.ofNat 32 g.val then 1 else 0 := by
  show FloatOps.sitofp (F := Ideal) .f32 ((IntOp.cmpi .eq (broadcastTo S5000x64 (shapeCast S5000x1 x0 hs) hb1 (ix2 r g))
    (broadcastTo S5000x64 (iota .tc S1x64 32 [1] hi) hb2 (ix2 r g))).setWidth 32) = _
  rw [broadcastTo_apply _ hb1 (ix2 r g) (ix2 r (0 : Fin 1)) (fun a => by match a with | ⟨0, _⟩ => rfl | ⟨1, _⟩ => rfl),
    broadcastTo_apply _ hb2 (ix2 r g) (ix2 (0 : Fin 1) g) (fun a => by match a with | ⟨0, _⟩ => rfl | ⟨1, _⟩ => rfl),
    shapeCast_self, iota_single_apply]
  show ((((IntOp.cmpi .eq (x0 (ix2 r (0 : Fin 1))) (BitVec.ofNat 32 g.val)).setWidth 32).toInt : ℝ) : EReal) = _
  by_cases h : x0 (ix2 r (0 : Fin 1)) = BitVec.ofNat 32 g.val
  · rw [if_pos h, h]; simp [IntOp.cmpi]
  · have hb : (x0 (ix2 r (0 : Fin 1)) == BitVec.ofNat 32 g.val) = false := by simpa using h
    rw [if_neg h]; simp [IntOp.cmpi, hb]

/-- The pooling product's operand indices: the contraction runs over axis 0 of both operands (the block's rows);
    the left operand's other axis is the result's row (the graph), the right's is the result's column (the feature). -/
theorem pool_lhs_0 (i : S64x32.Idx) (q : dot_S5000x64_S5000x32_S64x32_0_0_1_1_n_n.contr.Idx) :
    (dot_S5000x64_S5000x32_S64x32_0_0_1_1_n_n.lhsIdx i q 0).val = (q ⟨0, by decide⟩).val :=
  dot_S5000x64_S5000x32_S64x32_0_0_1_1_n_n.lhsIdx_val_of_single rfl i q
theorem pool_lhs_1 (i : S64x32.Idx) (q : dot_S5000x64_S5000x32_S64x32_0_0_1_1_n_n.contr.Idx) :
    (dot_S5000x64_S5000x32_S64x32_0_0_1_1_n_n.lhsIdx i q 1).val = (i 0).val := by
  unfold DotDims.lhsIdx
  rw [dif_neg (show ¬(1 : Fin S5000x64.rank) ∈ dot_S5000x64_S5000x32_S64x32_0_0_1_1_n_n.lhsBatch by decide), dif_pos (show (1 : Fin S5000x64.rank) ∈ dot_S5000x64_S5000x32_S64x32_0_0_1_1_n_n.lhsNonContracting by decide)]
  rfl
theorem pool_rhs_0 (i : S64x32.Idx) (q : dot_S5000x64_S5000x32_S64x32_0_0_1_1_n_n.contr.Idx) :
    (dot_S5000x64_S5000x32_S64x32_0_0_1_1_n_n.rhsIdx i q 0).val = (q ⟨0, by decide⟩).val :=
  dot_S5000x64_S5000x32_S64x32_0_0_1_1_n_n.rhsIdx_val_of_single rfl i q
theorem pool_rhs_1 (i : S64x32.Idx) (q : dot_S5000x64_S5000x32_S64x32_0_0_1_1_n_n.contr.Idx) :
    (dot_S5000x64_S5000x32_S64x32_0_0_1_1_n_n.rhsIdx i q 1).val = (i 1).val := by
  unfold DotDims.rhsIdx
  rw [dif_neg (show ¬(1 : Fin S5000x32.rank) ∈ dot_S5000x64_S5000x32_S64x32_0_0_1_1_n_n.rhsBatch by decide), dif_pos (show (1 : Fin S5000x32.rank) ∈ dot_S5000x64_S5000x32_S64x32_0_0_1_1_n_n.rhsNonContracting by decide)]
  rfl

/-- The product into a zero accumulator, at (g, q): the sum over the block's rows of left (r, g) times right (r, q). -/
theorem pool_matmul_apply (lhs : FVec Ideal S5000x64 .f32) (rhs : FVec Ideal S5000x32 .f32) (g : Fin 64) (q : Fin 32) :
    matmul dot_S5000x64_S5000x32_S64x32_0_0_1_1_n_n none lhs rhs (constant S64x32 .f32 0x00000000#32) (ix2 g q)
      = ∑ r : Fin 5000, lhs (ix2 r g) * rhs (ix2 r q) := by
  simp only [matmul]
  rw [Ideal.matmul_constant_zero_apply, ← Equiv.sum_comp (contrEquiv1 dot_S5000x64_S5000x32_S64x32_0_0_1_1_n_n 5000 rfl rfl).symm]
  refine Finset.sum_congr rfl fun k _ => ?_
  have hk := contrEquiv1_symm_val dot_S5000x64_S5000x32_S64x32_0_0_1_1_n_n 5000 rfl rfl k
  have el : dot_S5000x64_S5000x32_S64x32_0_0_1_1_n_n.lhsIdx (ix2 g q) ((contrEquiv1 dot_S5000x64_S5000x32_S64x32_0_0_1_1_n_n 5000 rfl rfl).symm k) = ix2 k g := funext fun a => Fin.ext (by
    match a with
    | ⟨0, _⟩ => exact (pool_lhs_0 _ _).trans hk
    | ⟨1, _⟩ => exact pool_lhs_1 _ _)
  have er : dot_S5000x64_S5000x32_S64x32_0_0_1_1_n_n.rhsIdx (ix2 g q) ((contrEquiv1 dot_S5000x64_S5000x32_S64x32_0_0_1_1_n_n 5000 rfl rfl).symm k) = ix2 k q := funext fun a => Fin.ext (by
    match a with
    | ⟨0, _⟩ => exact (pool_rhs_0 _ _).trans hk
    | ⟨1, _⟩ => exact pool_rhs_1 _ _)
  rw [el, er]

/-- One grid point's store at (g, q): what the block held there plus the rows of this point's 5000 whose graph id is g. -/
theorem pool_pay2_apply (x0 : IVec S5000x1 32) (x1 : FVec Ideal S5000x32 .f32) (xo : FVec Ideal S64x32 .f32) (g : Fin 64) (q : Fin 32) :
    k3_pay2 (F := Ideal) x0 x1 xo (ix2 g q)
      = xo (ix2 g q) + ∑ r : Fin 5000, if x0 (ix2 r (0 : Fin 1)) = BitVec.ofNat 32 g.val then x1 (ix2 r q) else 0 := by
  unfold k3_pay2
  dsimp only
  refine (show ∀ (a b : FVec Ideal S64x32 .f32) (i : S64x32.Idx), addf a b i = a i + b i from fun _ _ _ => rfl) _ _ _ |>.trans ?_
  refine congrArg₂ (· + ·) (congrFun (shapeCast_self xo _) (ix2 g q)) ((pool_matmul_apply _ _ g q).trans (Finset.sum_congr rfl fun r _ => ?_))
  refine (congrArg₂ (· * ·) (pool_onehot_apply x0 _ _ _ _ _ r g) (congrFun (shapeCast_self x1 _) (ix2 r q))).trans ?_
  by_cases h : x0 (ix2 r (0 : Fin 1)) = BitVec.ofNat 32 g.val
  · rw [if_pos h, if_pos h, one_mul]
  · rw [if_neg h, if_neg h, zero_mul]

/-! ## A block's entry in its array -/

/-- The region's two operand arrays as it finds them, and their blocks at a grid point, at their literal types. -/
abbrev poolIds (V : VT) (c : Dev nD) : IVec S100000x1 32 := V c main_v93
abbrev poolRows (V : VT) (c : Dev nD) : FVec Ideal S100000x32 .f32 := V c main_v92
abbrev poolIdsBlk (V : VT) (c : Dev nD) (t : Fin cfg3.N) : IVec S5000x1 32 := iblk3 (F := Ideal) V c 0 t
abbrev poolRowsBlk (V : VT) (c : Dev nD) (t : Fin cfg3.N) : FVec Ideal S5000x32 .f32 := iblk3 (F := Ideal) V c 1 t

/-- Both operand windows step along axis 0 with the grid point and stay at column block 0. -/
theorem pool_idx_0 : ∀ t : Fin cfg3.N, win3_0.index t 0 = t.val ∧ win3_0.index t 1 = 0 :=
  (by decide +kernel : ∀ t : Fin grid3.N, win3_0.index t 0 = t.val ∧ win3_0.index t 1 = 0)
theorem pool_idx_1 : ∀ t : Fin cfg3.N, win3_1.index t 0 = t.val ∧ win3_1.index t 1 = 0 :=
  (by decide +kernel : ∀ t : Fin grid3.N, win3_1.index t 0 = t.val ∧ win3_1.index t 1 = 0)

/-- Row r of point t's id block is row 5000 t + r of the id array. -/
theorem poolIdsBlk_apply (V : VT) (c : Dev nD) (t : Fin cfg3.N) (r : Fin 5000) (n : Fin 100000) (hn : n.val = 5000 * t.val + r.val) :
    poolIdsBlk V c t (ix2 r (0 : Fin 1)) = poolIds V c (ix2 n (0 : Fin 1)) := by
  show iblk3 (F := Ideal) V c 0 t (ix2 r (0 : Fin 1)) = _
  unfold iblk3
  rw [View.read_apply]
  show V c main_v93 _ = V c main_v93 _
  refine congrArg (V c main_v93) (funext fun a => Fin.ext ?_)
  match a with
  | ⟨0, _⟩ => show win3_0.index t 0 * 5000 + 1 * r.val = n.val; rw [(pool_idx_0 t).1]; omega
  | ⟨1, _⟩ => show win3_0.index t 1 * 1 + 1 * 0 = 0; rw [(pool_idx_0 t).2]

/-- Entry (r, q) of point t's row block is entry (5000 t + r, q) of the row array. -/
theorem poolRowsBlk_apply (V : VT) (c : Dev nD) (t : Fin cfg3.N) (r : Fin 5000) (q : Fin 32) (n : Fin 100000) (hn : n.val = 5000 * t.val + r.val) :
    poolRowsBlk V c t (ix2 r q) = poolRows V c (ix2 n q) := by
  show iblk3 (F := Ideal) V c 1 t (ix2 r q) = _
  unfold iblk3
  rw [View.read_apply]
  show V c main_v92 _ = V c main_v92 _
  refine congrArg (V c main_v92) (funext fun a => Fin.ext ?_)
  match a with
  | ⟨0, _⟩ => show win3_1.index t 0 * 5000 + 1 * r.val = n.val; rw [(pool_idx_1 t).1]; omega
  | ⟨1, _⟩ => show win3_1.index t 1 * 32 + 1 * q.val = q.val; rw [(pool_idx_1 t).2]; omega

/-! ## The pooled sum cut at the grid's blocks -/

/-- Row n's share of entry (g, q), as a function of a natural (zero past the array's last row). -/
def poolTerm (b : IVec S100000x1 32) (h : FVec Ideal S100000x32 .f32) (g : Fin 64) (q : Fin 32) (n : ℕ) : EReal :=
  if hn : n < 100000 then (if b (ix2 (⟨n, hn⟩ : Fin 100000) (0 : Fin 1)) = BitVec.ofNat 32 g.val then h (ix2 (⟨n, hn⟩ : Fin 100000) q) else 0) else 0

/-- The pooled sum at (g, q) is the sum of the shares over the first 100000 naturals. -/
theorem poolSum_apply (b : IVec S100000x1 32) (h : FVec Ideal S100000x32 .f32) (g : Fin 64) (q : Fin 32) :
    poolSum b h (ix2 g q) = ∑ n ∈ Finset.range 100000, poolTerm b h g q n := by
  rw [Finset.sum_range]
  show (∑ n : Fin 100000, if b (ix2 n (0 : Fin 1)) = BitVec.ofNat 32 g.val then h (ix2 n q) else 0) = _
  refine Finset.sum_congr rfl fun n _ => ?_
  unfold poolTerm
  rw [dif_pos n.isLt]

/-- The shares below 5000 (t + 1) are those below 5000 t and the 5000 of block t. -/
theorem pool_range_step (f : ℕ → EReal) (t : ℕ) :
    ∑ m ∈ Finset.range (5000 * (t + 1)), f m = ∑ m ∈ Finset.range (5000 * t), f m + ∑ r : Fin 5000, f (5000 * t + r.val) := by
  rw [Nat.mul_succ, Finset.sum_range_add, Finset.sum_range (fun x => f (5000 * t + x))]

/-! ## The block after each grid point -/

/-- The zero block the first point stores reads zero. -/
theorem pool_pay1_apply (g : Fin 64) (q : Fin 32) : k3_pay1 (F := Ideal) (ix2 g q) = 0 := by
  show Ideal.ofBits .f32 0x00000000#32 = 0
  exact Ideal.ofBits_zero_f32

/-- The 5000 rows point t adds at (g, q) are the shares of array rows 5000 t … 5000 t + 4999. -/
theorem pool_block_terms (V : VT) (c : Dev nD) (t : Fin cfg3.N) (g : Fin 64) (q : Fin 32) :
    (∑ r : Fin 5000, if poolIdsBlk V c t (ix2 r (0 : Fin 1)) = BitVec.ofNat 32 g.val then poolRowsBlk V c t (ix2 r q) else 0)
      = ∑ r : Fin 5000, poolTerm (poolIds V c) (poolRows V c) g q (5000 * t.val + r.val) := by
  have hN : t.val < 20 := lt_of_lt_of_eq t.isLt (show cfg3.N = 20 from N_3)
  refine Finset.sum_congr rfl fun r _ => ?_
  have hn : 5000 * t.val + r.val < 100000 := by have := r.isLt; omega
  unfold poolTerm
  rw [dif_pos hn, poolIdsBlk_apply V c t r ⟨5000 * t.val + r.val, hn⟩ rfl, poolRowsBlk_apply V c t r q ⟨5000 * t.val + r.val, hn⟩ rfl]

/-- After point n the output block holds, at (g, q), the shares of the array rows below 5000 (n + 1): the first point
    adds its block to zeros, each later point adds its block to what the point before left. -/
theorem pool_outsAt_apply (V : VT) (c : Dev nD) : ∀ (n : ℕ) (hn : n < cfg3.N) (g : Fin 64) (q : Fin 32),
    outsAt3 (F := Ideal) V c n hn (ix2 g q)
      = ∑ m ∈ Finset.range (5000 * (n + 1)), poolTerm (poolIds V c) (poolRows V c) g q m
  | 0, hn, g, q => by
    rw [outsAt3_A V c ⟨0, hn⟩ rfl]
    refine (congrFun (pool_pieceA (F := Ideal) c (grid3.coords ⟨0, hn⟩) (ms3_0 ⟨0, hn⟩) (hs3_0 ⟨0, hn⟩) (ms3_1 ⟨0, hn⟩) (hs3_1 ⟨0, hn⟩)
      (ms3_2 ⟨0, hn⟩) (hs3_2 ⟨0, hn⟩) ((hcond3_0 ⟨0, hn⟩).mpr rfl) (poolIdsBlk V c ⟨0, hn⟩) (poolRowsBlk V c ⟨0, hn⟩)) (ix2 g q)).trans ?_
    refine (pool_pay2_apply (poolIdsBlk V c ⟨0, hn⟩) (poolRowsBlk V c ⟨0, hn⟩) (k3_pay1 (F := Ideal)) g q).trans ?_
    rw [pool_pay1_apply, zero_add, pool_block_terms V c ⟨0, hn⟩ g q, pool_range_step, Nat.mul_zero, Finset.range_zero, Finset.sum_empty, zero_add]
  | n + 1, hn, g, q => by
    have hN : cfg3.N = 20 := N_3
    have hB : ¬(⟨n + 1, hn⟩ : Fin cfg3.N).val % 20 = 0 := by dsimp only; omega
    rw [outsAt3_B V c ⟨n + 1, hn⟩ hB]
    refine (congrFun (pool_pieceB (F := Ideal) c (grid3.coords ⟨n + 1, hn⟩) (ms3_0 ⟨n + 1, hn⟩) (hs3_0 ⟨n + 1, hn⟩) (ms3_1 ⟨n + 1, hn⟩) (hs3_1 ⟨n + 1, hn⟩)
      (ms3_2 ⟨n + 1, hn⟩) (hs3_2 ⟨n + 1, hn⟩) (fun h => hB ((hcond3_0 ⟨n + 1, hn⟩).mp h)) (poolIdsBlk V c ⟨n + 1, hn⟩) (poolRowsBlk V c ⟨n + 1, hn⟩)
      (outsAt3 (F := Ideal) V c n (Nat.lt_of_succ_lt hn))) (ix2 g q)).trans ?_
    refine (pool_pay2_apply (poolIdsBlk V c ⟨n + 1, hn⟩) (poolRowsBlk V c ⟨n + 1, hn⟩) (outsAt3 (F := Ideal) V c n (Nat.lt_of_succ_lt hn)) g q).trans ?_
    rw [pool_outsAt_apply V c n (Nat.lt_of_succ_lt hn) g q, pool_block_terms V c ⟨n + 1, hn⟩ g q, pool_range_step _ (n + 1)]

/-! ## The write-back -/

/-- The grid has twenty points; the last is point 19. -/
theorem pool_lt19 : 19 < cfg3.N := by rw [show cfg3.N = 20 from N_3]; decide

/-- After the last point the block holds the whole pooled sum. -/
theorem pool_outsAt_last (V : VT) (c : Dev nD) :
    outsAt3 (F := Ideal) V c 19 pool_lt19 = poolSum (poolIds V c) (poolRows V c) := by
  funext j
  obtain ⟨g, q, rfl⟩ : ∃ (g : Fin 64) (q : Fin 32), j = ix2 g q := ⟨j 0, j 1, eq_ix2 j⟩
  rw [pool_outsAt_apply V c 19 pool_lt19 g q, poolSum_apply]

/-- Only the last point writes back, and what it writes is the pooled sum: its block is the whole 64×32 array read
    at zero offsets. -/
theorem pool_flushed_eq (V : VT) (c : Dev nD) (t : Fin cfg3.N) (hf : (cfg3.win 2).flush t = true) :
    (dat3 (F := Ideal) V c).flushed 2 t = ((cfg3.win 2).blk t).view.read (Elt Ideal) (poolSum (poolIds V c) (poolRows V c)) := by
  have hN : cfg3.N = 20 := N_3
  have h19 : t.val = 19 := by have := (flush3_2 t).mp hf; have := t.isLt; omega
  obtain rfl : t = ⟨19, pool_lt19⟩ := Fin.ext h19
  show (cfg3.win 2).cut (grid3.coords ⟨19, pool_lt19⟩) ((dat3 (F := Ideal) V c).after 2 ⟨19, pool_lt19⟩) = _
  rw [after3_2, pool_outsAt_last]
  have hz' : (fun a => win3_2.index ⟨19, pool_lt19⟩ a * main_v94.ty.shape.size a) = fun _ => 0 := funext fun a => by fin_cases a <;> decide
  exact (Memref.read_access_unit_zero (Elt Ideal) main_v94 hz' (fun a => by rw [congrFun hz' a]; simp) (poolSum (poolIds V c) (poolRows V c))).symm

/-- Region 3's result array after the region: the pooled sum of its two operand arrays as the region finds them
    (the first grid point zeroes the block, every point adds its 5000 rows' one-hot product, the last writes back). -/
theorem arr3_sum (V : VT) (c : Dev nD) :
    (dat3 (F := Ideal) V c).arrAt 2 cfg3.N
      = poolSum (V c main_v93 : IVec S100000x1 32) (V c main_v92 : FVec Ideal S100000x32 .f32) :=
  (dat3 (F := Ideal) V c).arrAt_eq_of_cover 2 (poolSum (poolIds V c) (poolRows V c)) (pool_flushed_eq V c) fun i =>
    ⟨⟨19, pool_lt19⟩, (flush3_2 ⟨19, pool_lt19⟩).mpr rfl, by
      show i ∈ ((View.whole main_v94).slice (win3_2.rect ⟨19, pool_lt19⟩)).set
      rw [View.set_slice_whole, Rect.mem_set_unit]
      intro a
      have h0 : (i 0 : Nat) < 64 := (i 0).isLt
      have h1 : (i 1 : Nat) < 32 := (i 1).isLt
      match a with
      | ⟨0, _⟩ => show win3_2.index ⟨19, pool_lt19⟩ 0 * win3_2.size 0 ≤ (i 0 : Nat) ∧ (i 0 : Nat) < win3_2.index ⟨19, pool_lt19⟩ 0 * win3_2.size 0 + win3_2.xsize (grid3.coords ⟨19, pool_lt19⟩) 0
                  rw [show win3_2.index ⟨19, pool_lt19⟩ 0 * win3_2.size 0 = 0 from by decide +kernel, show win3_2.xsize (grid3.coords ⟨19, pool_lt19⟩) 0 = 64 from by decide +kernel]; omega
      | ⟨1, _⟩ => show win3_2.index ⟨19, pool_lt19⟩ 1 * win3_2.size 1 ≤ (i 1 : Nat) ∧ (i 1 : Nat) < win3_2.index ⟨19, pool_lt19⟩ 1 * win3_2.size 1 + win3_2.xsize (grid3.coords ⟨19, pool_lt19⟩) 1
                  rw [show win3_2.index ⟨19, pool_lt19⟩ 1 * win3_2.size 1 = 0 from by decide +kernel, show win3_2.xsize (grid3.coords ⟨19, pool_lt19⟩) 1 = 32 from by decide +kernel]; omega⟩

end Cert.KernelIdeal.Val

end
-- ==== Proof.PoolScatter.lean ====
import proofs.«427758_j2396591751941_4_alg».proof.Proof.Basics
import proofs.«427758_j2396591751941_4_alg».proof.Proof.Gen.ReferenceIdeal
import Idealize.ShloMosaic.PureOps.Ideal.Laws
import Idealize.ShloMosaic.Lib.ValueIdx

noncomputable section

namespace Cert.KernelIdeal.Val

open Idealize.ShloMosaic Idealize.ShloMosaic.TcCoe Idealize.SL.Sem
open Cert.KernelIdeal

/-- The scatter's dimension numbers: the updates' axis 1 is the window axis, the result's axis 0 is inserted, and the one
    component of a start index (read along the indices' axis 1) goes to the result's axis 0. -/
abbrev scatterD := Cert.ReferenceIdeal.scatter_S64x32_S100000x1_S100000x32_1_0_0_1

/-- Update (n, f) reads its start index at (n, 0): the update's one scatter axis is its axis 0, which is the
    indices' axis 0, and the index vector's axis has the single point 0. -/
theorem scatter_siIdx_eq (j : Cert.ReferenceIdeal.S100000x32.Idx) (c : Fin scatterD.scatterDimsToOperandDims.length) :
    scatterD.siIdx j c = ValueIdx.ix2 (j 0) (0 : Fin 1) := by
  funext a
  revert a
  refine Fin.forall_fin_two.2 ⟨?_, ?_⟩
  · unfold ScatterDims.siIdx
    rw [dif_neg (by decide : ¬ ((0 : Fin 2).val = scatterD.indexVectorDim))]
    unfold ScatterDims.siCoord
    apply Fin.ext
    simp only [Fin.coe_cast]
    have hax : scatterD.uScatter[List.idxOf (0 : Fin 2) scatterD.siKept]'(by decide) = (0 : Fin 2) := by decide
    rw [hax]
  · apply Fin.ext
    have h1 : (scatterD.siIdx j c (1 : Fin 2)).val < 1 := (scatterD.siIdx j c (1 : Fin 2)).isLt
    show _ = 0
    omega

/-- On the result's axis 0 the window starts at the signed value of the index word b[n, 0]. -/
theorem scatter_start0 (j : Cert.ReferenceIdeal.S100000x32.Idx) (idx : IVec Cert.ReferenceIdeal.S100000x1 32) :
    scatterD.start j idx 0 = (idx (ValueIdx.ix2 (j 0) (0 : Fin 1))).toInt := by
  unfold ScatterDims.start
  rw [dif_pos (by decide : (0 : Fin 2) ∈ scatterD.scatterDimsToOperandDims), scatter_siIdx_eq]
  rfl

/-- On the result's axis 1, which no start index component names, the window starts at 0. -/
theorem scatter_start1 (j : Cert.ReferenceIdeal.S100000x32.Idx) (idx : IVec Cert.ReferenceIdeal.S100000x1 32) :
    scatterD.start j idx 1 = 0 := by
  unfold ScatterDims.start
  rw [dif_neg (by decide : ¬ (1 : Fin 2) ∈ scatterD.scatterDimsToOperandDims)]

/-- The result's axis 0 is inserted: the window coordinate there is 0. -/
theorem scatter_window0 (j : Cert.ReferenceIdeal.S100000x32.Idx) : scatterD.window j 0 = 0 := by
  unfold ScatterDims.window
  rw [dif_neg (by decide : ¬ (0 : Fin 2) ∈ scatterD.sKept)]

/-- The result's axis 1 carries the update's window axis: the window coordinate there is the update's column. -/
theorem scatter_window1 (j : Cert.ReferenceIdeal.S100000x32.Idx) : scatterD.window j 1 = (j 1).val := by
  unfold ScatterDims.window
  rw [dif_pos (by decide : (1 : Fin 2) ∈ scatterD.sKept)]
  have hax : scatterD.updateWindowDims[List.idxOf (1 : Fin 2) scatterD.sKept]'(by decide) = (1 : Fin 2) := by decide
  rw [hax]

/-- Update j lands on result entry i exactly when the signed index word of its row is i's row and its column is i's
    column: start plus window coordinate is (b[n, 0], f), and the two range tests hold because i is an entry. -/
theorem scatter_resultIdx_iff (j : Cert.ReferenceIdeal.S100000x32.Idx) (idx : IVec Cert.ReferenceIdeal.S100000x1 32)
    (i : Cert.ReferenceIdeal.S64x32.Idx) :
    scatterD.resultIdx? j idx = some i ↔
      (idx (ValueIdx.ix2 (j 0) (0 : Fin 1))).toInt = ((i 0).val : Int) ∧ (j 1).val = (i 1).val := by
  unfold ScatterDims.resultIdx?
  have hi0 : (i 0).val < 64 := (i 0).isLt
  have hi1 : (i 1).val < 32 := (i 1).isLt
  have hj1 : (j 1).val < 32 := (j 1).isLt
  have s0 := scatter_start0 j idx
  have s1 := scatter_start1 j idx
  have w0 := scatter_window0 j
  have w1 := scatter_window1 j
  have z0 : Cert.ReferenceIdeal.S64x32.size (0 : Fin 2) = 64 := rfl
  have z1 : Cert.ReferenceIdeal.S64x32.size (1 : Fin 2) = 32 := rfl
  split
  next hin =>
    have h0 := hin 0
    have h1 := hin 1
    rw [s0, w0, z0] at h0
    rw [s1, w1, z1] at h1
    constructor
    · intro hf
      have hf' := Option.some.inj hf
      have e0 : ((scatterD.start j idx 0 + ↑(scatterD.window j 0)).toNat) = (i 0).val := congrArg (fun g => (g 0).val) hf'
      have e1 : ((scatterD.start j idx 1 + ↑(scatterD.window j 1)).toNat) = (i 1).val := congrArg (fun g => (g 1).val) hf'
      rw [s0, w0] at e0
      rw [s1, w1] at e1
      constructor <;> omega
    · rintro ⟨g0, g1⟩
      congr 1
      funext a
      revert a
      refine Fin.forall_fin_two.2 ⟨?_, ?_⟩
      · apply Fin.ext
        show (scatterD.start j idx 0 + ↑(scatterD.window j 0)).toNat = (i 0).val
        rw [s0, w0]; omega
      · apply Fin.ext
        show (scatterD.start j idx 1 + ↑(scatterD.window j 1)).toNat = (i 1).val
        rw [s1, w1]; omega
  next hout =>
    constructor
    · intro hf
      exact absurd hf (by simp)
    · rintro ⟨g0, g1⟩
      exfalso
      apply hout
      refine Fin.forall_fin_two.2 ⟨?_, ?_⟩
      · rw [s0, w0, z0]; omega
      · rw [s1, w1, z1]; omega

/-- A 32-bit word read signed is the natural number g below 64 exactly when it is the word of g. -/
theorem scatter_toInt_eq_iff (v : BitVec 32) (g : Nat) (hg : g < 64) : v.toInt = (g : Int) ↔ v = BitVec.ofNat 32 g := by
  have hv : v.toNat < 4294967296 := v.isLt
  constructor
  · intro hvg
    apply BitVec.eq_of_toNat_eq
    rw [BitVec.toNat_ofNat]
    rw [BitVec.toInt_eq_toNat_cond] at hvg
    split at hvg <;> omega
  · intro hvg
    subst hvg
    rw [BitVec.toInt_eq_toNat_cond, BitVec.toNat_ofNat]
    have hmod : g % 2 ^ 32 = g := Nat.mod_eq_of_lt (by omega)
    rw [hmod]
    split <;> omega

/-- Update (n, f) lands on entry i exactly when b[n, 0] is the word of i's row and f is i's column. -/
theorem scatter_lands_iff (n : Fin 100000) (f : Fin 32) (idx : IVec Cert.ReferenceIdeal.S100000x1 32)
    (i : Cert.ReferenceIdeal.S64x32.Idx) :
    scatterD.resultIdx? (ValueIdx.ix2 n f) idx = some i ↔
      idx (ValueIdx.ix2 n (0 : Fin 1)) = BitVec.ofNat 32 (i 0).val ∧ f.val = (i 1).val := by
  rw [scatter_resultIdx_iff, scatter_toInt_eq_iff _ _ (show (i 0).val < 64 from (i 0).isLt)]

/-- The reference's segment sum — the host's accumulating scatter of the rows of `h` into a zero array at the row
    indices `b` — is the pooled sum: update (n, f) lands on (b[n, 0], f) when that is a row of the result, else nowhere. -/
theorem scatter_eq_poolSum (b : IVec Cert.ReferenceIdeal.S100000x1 32) (h : FVec Ideal Cert.ReferenceIdeal.S100000x32 .f32) :
    Host.scatterAdd (F := Ideal) (φ := .f32) (w := 32) Cert.ReferenceIdeal.scatter_S64x32_S100000x1_S100000x32_1_0_0_1
        (broadcastInDim Cert.ReferenceIdeal.S64x32 ![] Cert.ReferenceIdeal.Facts₀.bcast_S_S64x32 (constant Cert.ReferenceIdeal.S_ .f32 0x00000000#32))
        b h
      = poolSum b h := by
  funext i
  -- the scatter at entry i: the zero operand there plus the sum of the updates landing on i
  show Ideal.ofBits .f32 0x00000000#32 + ∑ j ∈ Finset.univ.filter (fun j => scatterD.resultIdx? j b = some i), h j = poolSum b h i
  rw [Ideal.ofBits_zero_f32, zero_add]
  unfold poolSum
  -- the filtered sum over update indices is the double sum over rows n and columns f of the guarded terms
  rw [Finset.sum_filter, ValueIdx.sum_idx2]
  refine Finset.sum_congr rfl (fun n _ => ?_)
  simp only [scatter_lands_iff]
  by_cases hb : b (ValueIdx.ix2 n (0 : Fin 1)) = BitVec.ofNat 32 (i 0).val
  · -- row n belongs to graph i 0: of its 32 columns exactly column i 1 lands on i
    simp only [hb, true_and, if_true]
    rw [Finset.sum_eq_single (⟨(i 1).val, (i 1).isLt⟩ : Fin 32)]
    · rw [if_pos rfl]
    · intro f _ hf
      rw [if_neg]
      intro e
      exact hf (Fin.ext e)
    · intro hn
      exact absurd (Finset.mem_univ _) hn
  · -- row n belongs to another graph, or to none: no column lands on i
    simp only [hb, false_and, if_false, Finset.sum_const_zero]

end Cert.KernelIdeal.Val

end
-- ==== Proof.KVal.lean ====
/- The idealized kernel's result buffer at the end of @main, read back through the run's boundaries: at every
   boundary each live buffer holds the reference's stage of the same value. The host stretches are the reference's own
   operations on equal operands; each matrix-product kernel leaves the whole product the reference's dot_general
   computes; the pooling kernel leaves the reference's segment sum. -/
import proofs.«427758_j2396591751941_4_alg».proof.Proof.Gen.KernelIdeal.Frame
import proofs.«427758_j2396591751941_4_alg».proof.Proof.Gen.ReferenceIdeal.Read
import proofs.«427758_j2396591751941_4_alg».proof.Proof.Stage0
import proofs.«427758_j2396591751941_4_alg».proof.Proof.Stage1
import proofs.«427758_j2396591751941_4_alg».proof.Proof.Stage2
import proofs.«427758_j2396591751941_4_alg».proof.Proof.Stage3
import proofs.«427758_j2396591751941_4_alg».proof.Proof.Stage4
import proofs.«427758_j2396591751941_4_alg».proof.Proof.MM0
import proofs.«427758_j2396591751941_4_alg».proof.Proof.MM1
import proofs.«427758_j2396591751941_4_alg».proof.Proof.MM2
import proofs.«427758_j2396591751941_4_alg».proof.Proof.PoolKernel
import proofs.«427758_j2396591751941_4_alg».proof.Proof.PoolScatter

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-! ## The argument arrays as launched -/
abbrev a0 : (⟨Cert.ReferenceIdeal.S100000x128, .f32⟩ : BufTy).Contents (Elt Ideal) := m ((c : Thread nD τ).loc main_arg0)
abbrev a1 : (⟨Cert.ReferenceIdeal.S2x1600000, .i32⟩ : BufTy).Contents (Elt Ideal) := m ((c : Thread nD τ).loc main_arg1)
abbrev a2 : (⟨Cert.ReferenceIdeal.S100000, .i32⟩ : BufTy).Contents (Elt Ideal) := m ((c : Thread nD τ).loc main_arg2)
abbrev a3 : (⟨Cert.ReferenceIdeal.S128x32, .f32⟩ : BufTy).Contents (Elt Ideal) := m ((c : Thread nD τ).loc main_arg3)
abbrev a4 : (⟨Cert.ReferenceIdeal.S32, .f32⟩ : BufTy).Contents (Elt Ideal) := m ((c : Thread nD τ).loc main_arg4)
abbrev a5 : (⟨Cert.ReferenceIdeal.S32x32, .f32⟩ : BufTy).Contents (Elt Ideal) := m ((c : Thread nD τ).loc main_arg5)
abbrev a6 : (⟨Cert.ReferenceIdeal.S32, .f32⟩ : BufTy).Contents (Elt Ideal) := m ((c : Thread nD τ).loc main_arg6)
abbrev a7 : (⟨Cert.ReferenceIdeal.S32x32, .f32⟩ : BufTy).Contents (Elt Ideal) := m ((c : Thread nD τ).loc main_arg7)
abbrev a8 : (⟨Cert.ReferenceIdeal.S32, .f32⟩ : BufTy).Contents (Elt Ideal) := m ((c : Thread nD τ).loc main_arg8)
abbrev a9 : (⟨Cert.ReferenceIdeal.S32x10, .f32⟩ : BufTy).Contents (Elt Ideal) := m ((c : Thread nD τ).loc main_arg9)
abbrev a10 : (⟨Cert.ReferenceIdeal.S10, .f32⟩ : BufTy).Contents (Elt Ideal) := m ((c : Thread nD τ).loc main_arg10)

/-! ## After the first host stretch -/
theorem b1_v1 : W1 m ρ c (Proc.devRef .tc main_v1) = val_main_v1 (F := Ideal) (a1 m c) :=
  s0_v1 (W0 m ρ c) (a1 m c) rfl
theorem b1_v3 : W1 m ρ c (Proc.devRef .tc main_v3) = val_main_v3 (F := Ideal) (a1 m c) :=
  s0_v3 (W0 m ρ c) (a1 m c) rfl
theorem b1_v26 : W1 m ρ c (Proc.devRef .tc main_v26) = val_main_v27 (F := Ideal) (a1 m c) :=
  s0_v26 (W0 m ρ c) (a1 m c) rfl
theorem b1_v28 : W1 m ρ c (Proc.devRef .tc main_v28) = val_main_v42 (F := Ideal) (a1 m c) :=
  s0_v28 (W0 m ρ c) (a1 m c) rfl
theorem b1_arg0 : W1 m ρ c (Proc.devRef .tc main_arg0) = a0 m c :=
  (keep0_arg0 (W0 m ρ c)).trans rfl
theorem b1_arg2 : W1 m ρ c (Proc.devRef .tc main_arg2) = a2 m c :=
  (keep0_arg2 (W0 m ρ c)).trans rfl
theorem b1_arg3 : W1 m ρ c (Proc.devRef .tc main_arg3) = a3 m c :=
  (keep0_arg3 (W0 m ρ c)).trans rfl
theorem b1_arg4 : W1 m ρ c (Proc.devRef .tc main_arg4) = a4 m c :=
  (keep0_arg4 (W0 m ρ c)).trans rfl
theorem b1_arg5 : W1 m ρ c (Proc.devRef .tc main_arg5) = a5 m c :=
  (keep0_arg5 (W0 m ρ c)).trans rfl
theorem b1_arg6 : W1 m ρ c (Proc.devRef .tc main_arg6) = a6 m c :=
  (keep0_arg6 (W0 m ρ c)).trans rfl
theorem b1_arg7 : W1 m ρ c (Proc.devRef .tc main_arg7) = a7 m c :=
  (keep0_arg7 (W0 m ρ c)).trans rfl
theorem b1_arg8 : W1 m ρ c (Proc.devRef .tc main_arg8) = a8 m c :=
  (keep0_arg8 (W0 m ρ c)).trans rfl
theorem b1_arg9 : W1 m ρ c (Proc.devRef .tc main_arg9) = a9 m c :=
  (keep0_arg9 (W0 m ρ c)).trans rfl
theorem b1_arg10 : W1 m ρ c (Proc.devRef .tc main_arg10) = a10 m c :=
  (keep0_arg10 (W0 m ρ c)).trans rfl
/-! ## After kernel region 0 -/
theorem b2_v29 : W2 m ρ c (Proc.devRef .tc main_v29) = val_main_v12 (F := Ideal) (a0 m c) (a3 m c) :=
  (W2_arr m ρ c 2).trans ((arr0 (V1 m ρ) c).trans (congrArg₂ (fun (x : FVec Ideal Cert.ReferenceIdeal.S100000x128 .f32) (w : FVec Ideal Cert.ReferenceIdeal.S128x32 .f32) => Host.dotGeneral (F := Ideal) (φ₁ := .f32) (φ₂ := .f32) Cert.ReferenceIdeal.dot_S100000x128_S128x32_S100000x32_1_0_0_1_n_n none x w) (b1_arg0 m ρ c) (b1_arg3 m ρ c)))
theorem b2_v1 : W2 m ρ c (Proc.devRef .tc main_v1) = val_main_v1 (F := Ideal) (a1 m c) :=
  (W2_of_ne m ρ c main_v1 (by decide)).trans (b1_v1 m ρ c)
theorem b2_v3 : W2 m ρ c (Proc.devRef .tc main_v3) = val_main_v3 (F := Ideal) (a1 m c) :=
  (W2_of_ne m ρ c main_v3 (by decide)).trans (b1_v3 m ρ c)
theorem b2_v26 : W2 m ρ c (Proc.devRef .tc main_v26) = val_main_v27 (F := Ideal) (a1 m c) :=
  (W2_of_ne m ρ c main_v26 (by decide)).trans (b1_v26 m ρ c)
theorem b2_v28 : W2 m ρ c (Proc.devRef .tc main_v28) = val_main_v42 (F := Ideal) (a1 m c) :=
  (W2_of_ne m ρ c main_v28 (by decide)).trans (b1_v28 m ρ c)
theorem b2_arg2 : W2 m ρ c (Proc.devRef .tc main_arg2) = a2 m c :=
  (W2_of_ne m ρ c main_arg2 (by decide)).trans (b1_arg2 m ρ c)
theorem b2_arg4 : W2 m ρ c (Proc.devRef .tc main_arg4) = a4 m c :=
  (W2_of_ne m ρ c main_arg4 (by decide)).trans (b1_arg4 m ρ c)
theorem b2_arg5 : W2 m ρ c (Proc.devRef .tc main_arg5) = a5 m c :=
  (W2_of_ne m ρ c main_arg5 (by decide)).trans (b1_arg5 m ρ c)
theorem b2_arg6 : W2 m ρ c (Proc.devRef .tc main_arg6) = a6 m c :=
  (W2_of_ne m ρ c main_arg6 (by decide)).trans (b1_arg6 m ρ c)
theorem b2_arg7 : W2 m ρ c (Proc.devRef .tc main_arg7) = a7 m c :=
  (W2_of_ne m ρ c main_arg7 (by decide)).trans (b1_arg7 m ρ c)
theorem b2_arg8 : W2 m ρ c (Proc.devRef .tc main_arg8) = a8 m c :=
  (W2_of_ne m ρ c main_arg8 (by decide)).trans (b1_arg8 m ρ c)
theorem b2_arg9 : W2 m ρ c (Proc.devRef .tc main_arg9) = a9 m c :=
  (W2_of_ne m ρ c main_arg9 (by decide)).trans (b1_arg9 m ρ c)
theorem b2_arg10 : W2 m ρ c (Proc.devRef .tc main_arg10) = a10 m c :=
  (W2_of_ne m ρ c main_arg10 (by decide)).trans (b1_arg10 m ρ c)
/-! ## After the second host stretch -/
theorem b3_v50 : W3 m ρ c (Proc.devRef .tc main_v50) = val_main_v49 (F := Ideal) (a0 m c) (a1 m c) (a3 m c) (a4 m c) :=
  s1_v50 (W2 m ρ c) (a0 m c) (a1 m c) (a3 m c) (a4 m c) (b2_v29 m ρ c) (b2_v1 m ρ c) (b2_v3 m ρ c) (b2_v26 m ρ c) (b2_v28 m ρ c) (b2_arg4 m ρ c)
theorem b3_v1 : W3 m ρ c (Proc.devRef .tc main_v1) = val_main_v1 (F := Ideal) (a1 m c) :=
  (keep1_v1 (W2 m ρ c)).trans (b2_v1 m ρ c)
theorem b3_v3 : W3 m ρ c (Proc.devRef .tc main_v3) = val_main_v3 (F := Ideal) (a1 m c) :=
  (keep1_v3 (W2 m ρ c)).trans (b2_v3 m ρ c)
theorem b3_v26 : W3 m ρ c (Proc.devRef .tc main_v26) = val_main_v27 (F := Ideal) (a1 m c) :=
  (keep1_v26 (W2 m ρ c)).trans (b2_v26 m ρ c)
theorem b3_v28 : W3 m ρ c (Proc.devRef .tc main_v28) = val_main_v42 (F := Ideal) (a1 m c) :=
  (keep1_v28 (W2 m ρ c)).trans (b2_v28 m ρ c)
theorem b3_arg2 : W3 m ρ c (Proc.devRef .tc main_arg2) = a2 m c :=
  (keep1_arg2 (W2 m ρ c)).trans (b2_arg2 m ρ c)
theorem b3_arg5 : W3 m ρ c (Proc.devRef .tc main_arg5) = a5 m c :=
  (keep1_arg5 (W2 m ρ c)).trans (b2_arg5 m ρ c)
theorem b3_arg6 : W3 m ρ c (Proc.devRef .tc main_arg6) = a6 m c :=
  (keep1_arg6 (W2 m ρ c)).trans (b2_arg6 m ρ c)
theorem b3_arg7 : W3 m ρ c (Proc.devRef .tc main_arg7) = a7 m c :=
  (keep1_arg7 (W2 m ρ c)).trans (b2_arg7 m ρ c)
theorem b3_arg8 : W3 m ρ c (Proc.devRef .tc main_arg8) = a8 m c :=
  (keep1_arg8 (W2 m ρ c)).trans (b2_arg8 m ρ c)
theorem b3_arg9 : W3 m ρ c (Proc.devRef .tc main_arg9) = a9 m c :=
  (keep1_arg9 (W2 m ρ c)).trans (b2_arg9 m ρ c)
theorem b3_arg10 : W3 m ρ c (Proc.devRef .tc main_arg10) = a10 m c :=
  (keep1_arg10 (W2 m ρ c)).trans (b2_arg10 m ρ c)
/-! ## After kernel region 1 -/
theorem b4_v51 : W4 m ρ c (Proc.devRef .tc main_v51) = val_main_v50 (F := Ideal) (a0 m c) (a1 m c) (a3 m c) (a4 m c) (a5 m c) :=
  (W4_arr m ρ c 2).trans ((arr1 (V3 m ρ) c).trans (congrArg₂ (fun (x : FVec Ideal Cert.ReferenceIdeal.S100000x32 .f32) (w : FVec Ideal Cert.ReferenceIdeal.S32x32 .f32) => Host.dotGeneral (F := Ideal) (φ₁ := .f32) (φ₂ := .f32) Cert.ReferenceIdeal.dot_S100000x32_S32x32_S100000x32_1_0_0_1_n_n none x w) (b3_v50 m ρ c) (b3_arg5 m ρ c)))
theorem b4_v1 : W4 m ρ c (Proc.devRef .tc main_v1) = val_main_v1 (F := Ideal) (a1 m c) :=
  (W4_of_ne m ρ c main_v1 (by decide)).trans (b3_v1 m ρ c)
theorem b4_v3 : W4 m ρ c (Proc.devRef .tc main_v3) = val_main_v3 (F := Ideal) (a1 m c) :=
  (W4_of_ne m ρ c main_v3 (by decide)).trans (b3_v3 m ρ c)
theorem b4_v26 : W4 m ρ c (Proc.devRef .tc main_v26) = val_main_v27 (F := Ideal) (a1 m c) :=
  (W4_of_ne m ρ c main_v26 (by decide)).trans (b3_v26 m ρ c)
theorem b4_v28 : W4 m ρ c (Proc.devRef .tc main_v28) = val_main_v42 (F := Ideal) (a1 m c) :=
  (W4_of_ne m ρ c main_v28 (by decide)).trans (b3_v28 m ρ c)
theorem b4_arg2 : W4 m ρ c (Proc.devRef .tc main_arg2) = a2 m c :=
  (W4_of_ne m ρ c main_arg2 (by decide)).trans (b3_arg2 m ρ c)
theorem b4_arg6 : W4 m ρ c (Proc.devRef .tc main_arg6) = a6 m c :=
  (W4_of_ne m ρ c main_arg6 (by decide)).trans (b3_arg6 m ρ c)
theorem b4_arg7 : W4 m ρ c (Proc.devRef .tc main_arg7) = a7 m c :=
  (W4_of_ne m ρ c main_arg7 (by decide)).trans (b3_arg7 m ρ c)
theorem b4_arg8 : W4 m ρ c (Proc.devRef .tc main_arg8) = a8 m c :=
  (W4_of_ne m ρ c main_arg8 (by decide)).trans (b3_arg8 m ρ c)
theorem b4_arg9 : W4 m ρ c (Proc.devRef .tc main_arg9) = a9 m c :=
  (W4_of_ne m ρ c main_arg9 (by decide)).trans (b3_arg9 m ρ c)
theorem b4_arg10 : W4 m ρ c (Proc.devRef .tc main_arg10) = a10 m c :=
  (W4_of_ne m ρ c main_arg10 (by decide)).trans (b3_arg10 m ρ c)
/-! ## After the third host stretch -/
theorem b5_v72 : W5 m ρ c (Proc.devRef .tc main_v72) = val_main_v87 (F := Ideal) (a0 m c) (a1 m c) (a3 m c) (a4 m c) (a5 m c) (a6 m c) :=
  s2_v72 (W4 m ρ c) (a0 m c) (a1 m c) (a3 m c) (a4 m c) (a5 m c) (a6 m c) (b4_v51 m ρ c) (b4_v1 m ρ c) (b4_v3 m ρ c) (b4_v26 m ρ c) (b4_v28 m ρ c) (b4_arg6 m ρ c)
theorem b5_v1 : W5 m ρ c (Proc.devRef .tc main_v1) = val_main_v1 (F := Ideal) (a1 m c) :=
  (keep2_v1 (W4 m ρ c)).trans (b4_v1 m ρ c)
theorem b5_v3 : W5 m ρ c (Proc.devRef .tc main_v3) = val_main_v3 (F := Ideal) (a1 m c) :=
  (keep2_v3 (W4 m ρ c)).trans (b4_v3 m ρ c)
theorem b5_v26 : W5 m ρ c (Proc.devRef .tc main_v26) = val_main_v27 (F := Ideal) (a1 m c) :=
  (keep2_v26 (W4 m ρ c)).trans (b4_v26 m ρ c)
theorem b5_v28 : W5 m ρ c (Proc.devRef .tc main_v28) = val_main_v42 (F := Ideal) (a1 m c) :=
  (keep2_v28 (W4 m ρ c)).trans (b4_v28 m ρ c)
theorem b5_arg2 : W5 m ρ c (Proc.devRef .tc main_arg2) = a2 m c :=
  (keep2_arg2 (W4 m ρ c)).trans (b4_arg2 m ρ c)
theorem b5_arg7 : W5 m ρ c (Proc.devRef .tc main_arg7) = a7 m c :=
  (keep2_arg7 (W4 m ρ c)).trans (b4_arg7 m ρ c)
theorem b5_arg8 : W5 m ρ c (Proc.devRef .tc main_arg8) = a8 m c :=
  (keep2_arg8 (W4 m ρ c)).trans (b4_arg8 m ρ c)
theorem b5_arg9 : W5 m ρ c (Proc.devRef .tc main_arg9) = a9 m c :=
  (keep2_arg9 (W4 m ρ c)).trans (b4_arg9 m ρ c)
theorem b5_arg10 : W5 m ρ c (Proc.devRef .tc main_arg10) = a10 m c :=
  (keep2_arg10 (W4 m ρ c)).trans (b4_arg10 m ρ c)
/-! ## After kernel region 2 -/
theorem b6_v73 : W6 m ρ c (Proc.devRef .tc main_v73) = val_main_v88 (F := Ideal) (a0 m c) (a1 m c) (a3 m c) (a4 m c) (a5 m c) (a6 m c) (a7 m c) :=
  (W6_arr m ρ c 2).trans ((arr2 (V5 m ρ) c).trans (congrArg₂ (fun (x : FVec Ideal Cert.ReferenceIdeal.S100000x32 .f32) (w : FVec Ideal Cert.ReferenceIdeal.S32x32 .f32) => Host.dotGeneral (F := Ideal) (φ₁ := .f32) (φ₂ := .f32) Cert.ReferenceIdeal.dot_S100000x32_S32x32_S100000x32_1_0_0_1_n_n none x w) (b5_v72 m ρ c) (b5_arg7 m ρ c)))
theorem b6_v1 : W6 m ρ c (Proc.devRef .tc main_v1) = val_main_v1 (F := Ideal) (a1 m c) :=
  (W6_of_ne m ρ c main_v1 (by decide)).trans (b5_v1 m ρ c)
theorem b6_v3 : W6 m ρ c (Proc.devRef .tc main_v3) = val_main_v3 (F := Ideal) (a1 m c) :=
  (W6_of_ne m ρ c main_v3 (by decide)).trans (b5_v3 m ρ c)
theorem b6_v26 : W6 m ρ c (Proc.devRef .tc main_v26) = val_main_v27 (F := Ideal) (a1 m c) :=
  (W6_of_ne m ρ c main_v26 (by decide)).trans (b5_v26 m ρ c)
theorem b6_v28 : W6 m ρ c (Proc.devRef .tc main_v28) = val_main_v42 (F := Ideal) (a1 m c) :=
  (W6_of_ne m ρ c main_v28 (by decide)).trans (b5_v28 m ρ c)
theorem b6_arg2 : W6 m ρ c (Proc.devRef .tc main_arg2) = a2 m c :=
  (W6_of_ne m ρ c main_arg2 (by decide)).trans (b5_arg2 m ρ c)
theorem b6_arg8 : W6 m ρ c (Proc.devRef .tc main_arg8) = a8 m c :=
  (W6_of_ne m ρ c main_arg8 (by decide)).trans (b5_arg8 m ρ c)
theorem b6_arg9 : W6 m ρ c (Proc.devRef .tc main_arg9) = a9 m c :=
  (W6_of_ne m ρ c main_arg9 (by decide)).trans (b5_arg9 m ρ c)
theorem b6_arg10 : W6 m ρ c (Proc.devRef .tc main_arg10) = a10 m c :=
  (W6_of_ne m ρ c main_arg10 (by decide)).trans (b5_arg10 m ρ c)
/-! ## After the fourth host stretch -/
theorem b7_v92 : W7 m ρ c (Proc.devRef .tc main_v92) = val_main_v124 (F := Ideal) (a0 m c) (a1 m c) (a3 m c) (a4 m c) (a5 m c) (a6 m c) (a7 m c) (a8 m c) :=
  s3_v92 (W6 m ρ c) (a0 m c) (a1 m c) (a3 m c) (a4 m c) (a5 m c) (a6 m c) (a7 m c) (a8 m c) (b6_v73 m ρ c) (b6_v1 m ρ c) (b6_v3 m ρ c) (b6_v26 m ρ c) (b6_v28 m ρ c) (b6_arg8 m ρ c)
theorem b7_v93 : W7 m ρ c (Proc.devRef .tc main_v93) = val_main_v126 (F := Ideal) (a2 m c) :=
  s3_v93 (W6 m ρ c) (a2 m c) (b6_arg2 m ρ c)
theorem b7_arg2 : W7 m ρ c (Proc.devRef .tc main_arg2) = a2 m c :=
  (keep3_arg2 (W6 m ρ c)).trans (b6_arg2 m ρ c)
theorem b7_arg9 : W7 m ρ c (Proc.devRef .tc main_arg9) = a9 m c :=
  (keep3_arg9 (W6 m ρ c)).trans (b6_arg9 m ρ c)
theorem b7_arg10 : W7 m ρ c (Proc.devRef .tc main_arg10) = a10 m c :=
  (keep3_arg10 (W6 m ρ c)).trans (b6_arg10 m ρ c)
/-! ## After the pooling kernel -/
theorem b8_v94 : W8 m ρ c (Proc.devRef .tc main_v94) = val_main_v127 (F := Ideal) (a0 m c) (a1 m c) (a2 m c) (a3 m c) (a4 m c) (a5 m c) (a6 m c) (a7 m c) (a8 m c) :=
  (W8_arr m ρ c 2).trans ((arr3_sum (V7 m ρ) c).trans ((congrArg₂ (fun (b : IVec S100000x1 32) (h : FVec Ideal S100000x32 .f32) => poolSum b h) (b7_v93 m ρ c) (b7_v92 m ρ c)).trans
    (scatter_eq_poolSum (val_main_v126 (F := Ideal) (a2 m c)) (val_main_v124 (F := Ideal) (a0 m c) (a1 m c) (a3 m c) (a4 m c) (a5 m c) (a6 m c) (a7 m c) (a8 m c))).symm))
theorem b8_arg2 : W8 m ρ c (Proc.devRef .tc main_arg2) = a2 m c :=
  (W8_of_ne m ρ c main_arg2 (by decide)).trans (b7_arg2 m ρ c)
theorem b8_arg9 : W8 m ρ c (Proc.devRef .tc main_arg9) = a9 m c :=
  (W8_of_ne m ρ c main_arg9 (by decide)).trans (b7_arg9 m ρ c)
theorem b8_arg10 : W8 m ρ c (Proc.devRef .tc main_arg10) = a10 m c :=
  (W8_of_ne m ρ c main_arg10 (by decide)).trans (b7_arg10 m ρ c)
/-! ## At the end of @main -/
/-- The idealized kernel's result is the reference's last stage of the same arguments. -/
theorem result_eq : W9 m ρ c (Proc.devRef .tc main_v118) = val_main_v151 (F := Ideal) (a0 m c) (a1 m c) (a2 m c) (a3 m c) (a4 m c) (a5 m c) (a6 m c) (a7 m c) (a8 m c) (a9 m c) (a10 m c) :=
  s4_v118 (W8 m ρ c) (a0 m c) (a1 m c) (a2 m c) (a3 m c) (a4 m c) (a5 m c) (a6 m c) (a7 m c) (a8 m c) (a9 m c) (a10 m c) (b8_v94 m ρ c) (b8_arg2 m ρ c) (b8_arg9 m ρ c) (b8_arg10 m ρ c)

end Cert.KernelIdeal.Val

end
-- ==== Proof.lean ====
/- The certificate: a three-layer graph convolution network with mean pooling and a softmax head, whose dense
   transforms and pooling run as kernels, against the plain reference.

   The three frames are the generated ones (the reference's is its generated run with the result dropped). The
   idealization rewrote nothing, so there is nothing to preserve. For the values: the idealized kernel's run ends with
   its result buffer at the last boundary's contents (`Gen.run_val`), and read back boundary by boundary those contents
   are the reference's last stage of the same arguments (`Val.result_eq`): the host stretches between the kernels are
   the reference's own operations on equal operands; each matrix-product kernel writes, block of rows by block of rows,
   the whole product the reference's dot_general computes (the same sum over the contracted axis at every entry); the
   pooling kernel's running sum of one-hot products over the twenty tiles of rows is the reference's segment sum (both
   add row n into the row its graph id names, and drop a row whose id names no graph). The reference's own run ends at
   that stage of its arguments (`Value.run`, `Read.val_main_v151_eq`), and the arguments agree. No law of the extended
   reals beyond commutativity and associativity of addition and 0 · x = 0, 1 · x = x is used, so the finiteness of the
   inputs is never opened. -/
import proofs.«427758_j2396591751941_4_alg».proof.Defs
import proofs.«427758_j2396591751941_4_alg».proof.Proof.Gen.Kernel
import proofs.«427758_j2396591751941_4_alg».proof.Proof.Gen.Kernel.Skeleton
import proofs.«427758_j2396591751941_4_alg».proof.Proof.Gen.Kernel.Launch
import proofs.«427758_j2396591751941_4_alg».proof.Proof.Gen.Kernel.Points
import proofs.«427758_j2396591751941_4_alg».proof.Proof.Gen.Kernel.Frame
import proofs.«427758_j2396591751941_4_alg».proof.Proof.Gen.KernelIdeal
import proofs.«427758_j2396591751941_4_alg».proof.Proof.Gen.KernelIdeal.Skeleton
import proofs.«427758_j2396591751941_4_alg».proof.Proof.Gen.KernelIdeal.Launch
import proofs.«427758_j2396591751941_4_alg».proof.Proof.Gen.KernelIdeal.Points
import proofs.«427758_j2396591751941_4_alg».proof.Proof.Gen.KernelIdeal.Frame
import proofs.«427758_j2396591751941_4_alg».proof.Proof.Gen.ReferenceIdeal
import proofs.«427758_j2396591751941_4_alg».proof.Proof.Gen.ReferenceIdeal.Run
import proofs.«427758_j2396591751941_4_alg».proof.Proof.Gen.ReferenceIdeal.Read
import proofs.«427758_j2396591751941_4_alg».proof.Proof.Gen.Pre_finite_inputs
import proofs.«427758_j2396591751941_4_alg».proof.Proof.KRun
import proofs.«427758_j2396591751941_4_alg».proof.Proof.KVal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the reference's last stage of the (agreeing) arguments in their result buffers. -/
theorem algebraic : Cert.algebraic_KernelIdeal_ReferenceIdeal := by
  intro m ρ m' ρ' _ hagree
  refine ⟨fun c => Cert.KernelIdeal.Gen.W9 m ρ c (Proc.devRef .tc Cert.KernelIdeal.main_v118), Cert.KernelIdeal.Gen.run_val m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v151_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact (Cert.KernelIdeal.Val.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
